-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 16384, 256]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 16384, 256]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x512x256 .f32) (main_arg1 : FVec F S4x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Pre_finite_inputs_ReferenceIdeal.lean ====
abbrev S4x16384x256 : Shape := ⟨3, ![4, 16384, 256]⟩
abbrev S4x256 : Shape := ⟨2, ![4, 256]⟩
abbrev S_ : Shape := ⟨0, ![]⟩

class Facts : Prop where
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x16384x256 .f32) (main_arg1 : FVec F S4x256 .f32) : IVec S_ 1 :=
  let main_v0 : FVec F S4x16384x256 .f32 := Host.absf main_arg0
  let main_cst : FVec F S_ .f32 := constant S_ .f32 0x7F800000#32
  let main_v1 : FVec F S4x16384x256 .f32 := broadcastInDim S4x16384x256 ![] bcast_S_S4x16384x256 main_cst
  let main_v2 : IVec S4x16384x256 1 := cmpf .olt main_v0 main_v1
  let main_c : IVec S_ 1 := constantI S_ 1 1#1
  let main_v3 : IVec S_ 1 := (fun x v => Host.reduce IntOp.andi x v reducesTo_S4x16384x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x512x256 : Shape := ⟨3, ![4, 512, 256]⟩
abbrev S4x256 : Shape := ⟨2, ![4, 256]⟩
abbrev S4x3x256 : Shape := ⟨3, ![4, 3, 256]⟩
abbrev S_ : Shape := ⟨0, ![]⟩
abbrev S4x509x256 : Shape := ⟨3, ![4, 509, 256]⟩
abbrev S1x256 : Shape := ⟨2, ![1, 256]⟩
abbrev S256 : Shape := ⟨1, ![256]⟩
abbrev S1x1x256 : Shape := ⟨3, ![1, 1, 256]⟩
abbrev S4x510x256 : Shape := ⟨3, ![4, 510, 256]⟩
abbrev S4x6x256 : Shape := ⟨3, ![4, 6, 256]⟩
abbrev S4x4x256 : Shape := ⟨3, ![4, 4, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .bf16⟩
  | .local _ .vmem, ⟨0, _⟩ => ⟨S4x512x256, .f32⟩
  | .local _ .vmem, ⟨1, _⟩ => ⟨S4x256, .f32⟩
  | .local _ .vmem, ⟨2, _⟩ => ⟨S4x512x256, .bf16⟩
  | .local _ .vmem, ⟨3, _⟩ => ⟨S4x3x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_25 : BitVec 32 := 1#32
  let v99 : BitVec 32 := Scalar.subi v2 c1_i32_25
  let c1_i32_27 : BitVec 32 := 1#32
  let v100 : BitVec 32 := Scalar.muli v99 c1_i32_27
  let v101 : BitVec 32 := Scalar.addi c0_i32_28 v100
  v101.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2 : BitVec 32 := 31#32
  let v9 : BitVec 1 := Scalar.cmpi .slt v2 c31_i32_2
  let v10 : BitVec 32 := Scalar.extui v9
  let c0_i32_3 : BitVec 32 := 0#32
  let v11 : BitVec 1 := Scalar.cmpi .ne v10 c0_i32_3
  v11

def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 32 := Scalar.addi v2 c1_i32_1
  let c31_i32 : BitVec 32 := 31#32
  let v8 : BitVec 32 := Scalar.minsi v7 c31_i32
  let c1_i32_26 : BitVec 32 := 1#32
  let v99 : BitVec 32 := Scalar.muli v8 c1_i32_26
  let v100 : BitVec 32 := Scalar.addi c0_i32_27 v99
  v100.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x512x256_S4x3x256_0_509_0 : ∀ a, (![0, 509, 0] : Fin 3 → Nat) a + S4x3x256.size a ≤ S4x512x256.size a
  inb_S4x256_S4x256_0_0 : ∀ a, (![0, 0] : Fin 2 → Nat) a + S4x256.size a ≤ S4x256.size a
  h_S4x256 : 0 < S4x256.numel
  shapeCasts_S4x256_S4x256 : S4x256.ShapeCasts S4x256
  bitsLt_bf16_f32 : FTy.bits .bf16 < FTy.bits .f32
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  slices_S4x512x256_o0_0_0_S4x509x256 : S4x512x256.Slices ![0, 0, 0] S4x509x256
  slices_S4x256_o0_0_S1x256 : S4x256.Slices ![0, 0] S1x256
  shapeCasts_S1x256_S256 : S1x256.ShapeCasts S256
  shapeCasts_S256_S1x1x256 : S256.ShapeCasts S1x1x256
  broadcasts_S1x1x256_S4x509x256 : S1x1x256.Broadcasts S4x509x256
  slices_S4x512x256_o0_1_0_S4x509x256 : S4x512x256.Slices ![0, 1, 0] S4x509x256
  slices_S4x256_o1_0_S1x256 : S4x256.Slices ![1, 0] S1x256
  slices_S4x512x256_o0_2_0_S4x509x256 : S4x512x256.Slices ![0, 2, 0] S4x509x256
  slices_S4x256_o2_0_S1x256 : S4x256.Slices ![2, 0] S1x256
  slices_S4x512x256_o0_3_0_S4x509x256 : S4x512x256.Slices ![0, 3, 0] S4x509x256
  slices_S4x256_o3_0_S1x256 : S4x256.Slices ![3, 0] S1x256
  inb_S4x512x256_S4x509x256_0_3_0 : ∀ a, (![0, 3, 0] : Fin 3 → Nat) a + S4x509x256.size a ≤ S4x512x256.size a
  h_S4x509x256 : 0 < S4x509x256.numel
  inb_S4x512x256_S4x510x256_0_2_0 : ∀ a, (![0, 2, 0] : Fin 3 → Nat) a + S4x510x256.size a ≤ S4x512x256.size a
  h_S4x510x256 : 0 < S4x510x256.numel
  slices_S4x510x256_S4x509x256_0_1_0 : S4x510x256.Slices ![0, 1, 0] S4x509x256
  packedbf16_S4x512x256_S4x510x256_0_2_0 : (Rect.unit (s := S4x512x256) ![0, 2, 0] S4x510x256.size inb_S4x512x256_S4x510x256_0_2_0).PackedRows (EltTy.packing .bf16)
  inb_S4x3x256_S4x3x256_0_0_0 : ∀ a, (![0, 0, 0] : Fin 3 → Nat) a + S4x3x256.size a ≤ S4x3x256.size a
  h_S4x3x256 : 0 < S4x3x256.numel
  shapeCasts_S4x3x256_S4x3x256 : S4x3x256.ShapeCasts S4x3x256
  slices_S4x512x256_o0_0_0_S4x3x256 : S4x512x256.Slices ![0, 0, 0] S4x3x256
  concatenates_S4x3x256_S4x3x256_S4x6x256_d1 : Shape.Concatenates [S4x3x256, S4x3x256] S4x6x256 1
  slices_S4x6x256_o0_0_0_S4x3x256 : S4x6x256.Slices ![0, 0, 0] S4x3x256
  broadcasts_S1x1x256_S4x3x256 : S1x1x256.Broadcasts S4x3x256
  slices_S4x6x256_o0_1_0_S4x3x256 : S4x6x256.Slices ![0, 1, 0] S4x3x256
  slices_S4x6x256_o0_2_0_S4x3x256 : S4x6x256.Slices ![0, 2, 0] S4x3x256
  slices_S4x6x256_o0_3_0_S4x3x256 : S4x6x256.Slices ![0, 3, 0] S4x3x256
  inb_S4x512x256_S4x3x256_0_0_0 : ∀ a, (![0, 0, 0] : Fin 3 → Nat) a + S4x3x256.size a ≤ S4x512x256.size a
  inb_S4x512x256_S4x4x256_0_0_0 : ∀ a, (![0, 0, 0] : Fin 3 → Nat) a + S4x4x256.size a ≤ S4x512x256.size a
  h_S4x4x256 : 0 < S4x4x256.numel
  slices_S4x4x256_S4x3x256_0_0_0 : S4x4x256.Slices ![0, 0, 0] S4x3x256
  packedbf16_S4x512x256_S4x4x256_0_0_0 : (Rect.unit (s := S4x512x256) ![0, 0, 0] S4x4x256.size inb_S4x512x256_S4x4x256_0_0_0).PackedRows (EltTy.packing .bf16)
  hcc0_scratch1 : 3 + S_.numel ≤ 5
  hcc0_scratch2 : 4 + S_.numel ≤ 5
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S_ := SemArray.consecutive 3 S_ hcc0_scratch1
abbrev cc0_scratch2 : DmaSems sig S_ := SemArray.consecutive 4 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16384x256 : Shape := ⟨3, ![4, 16384, 256]⟩
abbrev S4x256 : Shape := ⟨2, ![4, 256]⟩
abbrev S_ : Shape := ⟨0, ![]⟩
abbrev S4x3x256 : Shape := ⟨3, ![4, 3, 256]⟩
abbrev S4x16387x256 : Shape := ⟨3, ![4, 16387, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x16387x256, .f32⟩
  | .hbm, ⟨5, _⟩ => ⟨S_, .f32⟩
  | .hbm, ⟨6, _⟩ => ⟨S4x16384x256, .f32⟩
  | .hbm, ⟨7, _⟩ => ⟨S4x16384x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x16384x256, .f32⟩
  | .hbm, ⟨12, _⟩ => ⟨S4x16384x256, .f32⟩
  | .hbm, ⟨13, _⟩ => ⟨S4x16384x256, .f32⟩
  | .hbm, ⟨14, _⟩ => ⟨S4x16384x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x16384x256, .f32⟩
  | .hbm, ⟨19, _⟩ => ⟨S4x16384x256, .f32⟩
  | .hbm, ⟨20, _⟩ => ⟨S4x16384x256, .f32⟩
  | .hbm, ⟨21, _⟩ => ⟨S4x16384x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x16384x256, .f32⟩
  | .hbm, ⟨26, _⟩ => ⟨S4x16384x256, .f32⟩
  | .hbm, ⟨27, _⟩ => ⟨S4x16384x256, .f32⟩
  | .hbm, ⟨28, _⟩ => ⟨S4x16384x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x16384x256, .f32⟩
  | .hbm, ⟨33, _⟩ => ⟨S4x16384x256, .f32⟩
  | .hbm, ⟨34, _⟩ => ⟨S4x16384x256, .f32⟩
  | .hbm, ⟨35, _⟩ => ⟨S4x16384x256, .f32⟩
  | .hbm, ⟨36, _⟩ => ⟨S4x16384x256, .f32⟩
  | .hbm, ⟨37, _⟩ => ⟨S_, .f32⟩
  | .hbm, ⟨38, _⟩ => ⟨S4x16384x256, .f32⟩
  | .hbm, ⟨39, _⟩ => ⟨S4x16384x256, .f32⟩
  | .hbm, ⟨40, _⟩ => ⟨S4x16384x256, .f32⟩
  | .hbm, ⟨41, _⟩ => ⟨S4x16384x256, .bf16⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]

class Facts₀ : Prop where
  bcast_S_S4x3x256 : S_.BroadcastsInDim S4x3x256 (![] : Fin 0 → Fin S4x3x256.rank)
  concatenates_S4x3x256_S4x16384x256_S4x16387x256_d1 : Shape.Concatenates [S4x3x256, S4x16384x256] S4x16387x256 1
  bcast_S_S4x16384x256 : S_.BroadcastsInDim S4x16384x256 (![] : Fin 0 → Fin S4x16384x256.rank)
  slices_S4x16387x256_S4x16384x256_0_0_0 : S4x16387x256.Slices ![0, 0, 0] S4x16384x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S4x16384x256_0_1_2 : S1x1x256.BroadcastsInDim S4x16384x256 (![0, 1, 2] : Fin 3 → Fin S4x16384x256.rank)
  slices_S4x16387x256_S4x16384x256_0_1_0 : S4x16387x256.Slices ![0, 1, 0] S4x16384x256
  slices_S4x256_S1x256_1_0 : S4x256.Slices ![1, 0] S1x256
  slices_S4x16387x256_S4x16384x256_0_2_0 : S4x16387x256.Slices ![0, 2, 0] S4x16384x256
  slices_S4x256_S1x256_2_0 : S4x256.Slices ![2, 0] S1x256
  slices_S4x16387x256_S4x16384x256_0_3_0 : S4x16387x256.Slices ![0, 3, 0] S4x16384x256
  slices_S4x256_S1x256_3_0 : S4x256.Slices ![3, 0] S1x256
  bitsLt_bf16_f32 : FTy.bits .bf16 < FTy.bits .f32

variable [Facts₀]

class Facts : Prop extends Facts₀ where

variable [Facts]
-- ==== Proof.Spec.lean ====
/-
  The per-device result as ONE function of what the device reads: its own block of the sequence, the
  filter taps, and the three rows before its block (the halo); and the same function spelt out on the
  extended reals: a causal four-tap depthwise convolution along the sequence, gated by x / (1 + e^(-x)).
-/
import proofs.«900794_g7700000000000795_dist_gconv1d_seqshard_i_b4_s512_c256_v7x_i32_bf16_1_alg».proof.Proof.Gen.KernelIdeal.Skeleton
import Idealize.ShloMosaic.Lib.ValueIdx
import Idealize.ShloMosaic.PureOps.Ideal

noncomputable section

namespace Cert.KernelIdeal.Spec

open Idealize.ShloMosaic Idealize.ShloMosaic.ValueIdx Cert.KernelIdeal Cert.KernelIdeal.Gen

variable {F : FTy → Type} [FloatOps F]

/-- The device before c on the ring of 32 (device 0's is device 31, which sends it nothing). -/
def prvD (c : Dev nD) : Dev nD := ⟨(c.val + 31) % 32, Nat.mod_lt _ (by decide)⟩
/-- The device after c on the ring of 32. -/
def nxtD (c : Dev nD) : Dev nD := ⟨(c.val + 1) % 32, Nat.mod_lt _ (by decide)⟩

/-- Rows 509, 510, 511 of a block: what a device sends on to the next one. -/
def lastRows (xv : Vec F S4x512x256 .f32) : Vec F S4x3x256 .f32 :=
  fun i => xv (ix3 (i 0) (⟨509 + (i 1).val, by have h : (i 1).val < 3 := (i 1).isLt; omega⟩ : Fin 512) (i 2))

/-- The halo of the first device: three rows of zeros. -/
def zeroHalo : Vec F S4x3x256 .f32 := k0_pay7 (F := F)

/-- The three rows before device c's block: zeros for the first device, else the previous device's last rows. -/
def haloOf (xs : Dev nD → Vec F S4x512x256 .f32) (c : Dev nD) : Vec F S4x3x256 .f32 :=
  if c.val = 0 then zeroHalo else lastRows (xs (prvD c))

/-- Result rows 0, 1, 2 of a device: they reach back into the halo. -/
def headOut (xv : Vec F S4x512x256 .f32) (kv : Vec F S4x256 .f32) (hv : Vec F S4x3x256 .f32) : FVec F S4x3x256 .bf16 :=
  k0_pay1 (k0_pay8 (k0_pay2 kv) (k0_pay3 xv) hv)

/-- Result rows 3 to 511 of a device: they read the device's own block only. -/
def tailOut (xv : Vec F S4x512x256 .f32) (kv : Vec F S4x256 .f32) : FVec F S4x509x256 .bf16 :=
  k0_pay6 (k0_pay4 kv xv) (k0_pay5 kv xv)

/-- The device's whole result block. -/
def outSpec (xv : Vec F S4x512x256 .f32) (kv : Vec F S4x256 .f32) (hv : Vec F S4x3x256 .f32) : Vec F S4x512x256 .bf16 :=
  fun i =>
    if h : (i 1).val < 3 then headOut xv kv hv (ix3 (i 0) (⟨(i 1).val, h⟩ : Fin 3) (i 2))
    else tailOut xv kv (ix3 (i 0) (⟨(i 1).val - 3, by have h' : (i 1).val < 512 := (i 1).isLt; omega⟩ : Fin 509) (i 2))

/-! ## The same, on the extended reals -/

/-- Row j of the halo followed by the block (rows 0 to 2 the halo, row j ≥ 3 the block's row j - 3). -/
def padAt (xv : S4x512x256.Idx → EReal) (hv : S4x3x256.Idx → EReal) (b : Fin 4) (j : ℕ) (ch : Fin 256) : EReal :=
  if h : j < 3 then hv (ix3 b (⟨j, h⟩ : Fin 3) ch)
  else if h' : j - 3 < 512 then xv (ix3 b (⟨j - 3, h'⟩ : Fin 512) ch) else 0

/-- The gate x / (1 + e^(-x)). -/
def silu (a : EReal) : EReal := Ideal.div a (1 + Ideal.exp (-a))

/-- Entry (b, r, ch) of a device's result: the gated sum over the four taps t of row r + t of the padded block times tap t. -/
def devFormula (xv : S4x512x256.Idx → EReal) (kv : S4x256.Idx → EReal) (hv : S4x3x256.Idx → EReal) : S4x512x256.Idx → EReal :=
  fun i => silu (padAt xv hv (i 0) ((i 1).val + 0) (i 2) * kv (ix2 (0 : Fin 4) (i 2))
    + padAt xv hv (i 0) ((i 1).val + 1) (i 2) * kv (ix2 (1 : Fin 4) (i 2))
    + padAt xv hv (i 0) ((i 1).val + 2) (i 2) * kv (ix2 (2 : Fin 4) (i 2))
    + padAt xv hv (i 0) ((i 1).val + 3) (i 2) * kv (ix2 (3 : Fin 4) (i 2)))

end Cert.KernelIdeal.Spec

end
-- ==== Proof.KernelValue.lean ====
/-
  The value a device's body leaves in its staging buffer. Two facts. First, for any float instance: the
  body's two stores of packed rows — rows 2 to 511 with the tail rows placed from row 3, then rows 0 to 3
  with the head rows placed from row 0 — compose to the device's result block, whatever the buffer held
  before. Second, on the extended reals: that result block is, entry by entry, the gated sum over the four
  taps of the halo followed by the block.
-/
import proofs.«900794_g7700000000000795_dist_gconv1d_seqshard_i_b4_s512_c256_v7x_i32_bf16_1_alg».proof.Proof.Spec
import Idealize.ShloMosaic.Lib.ValueIdx
import Idealize.ShloMosaic.Lib.Pipeline.Value
import Idealize.ShloMosaic.PureOps.Ideal.Laws

noncomputable section

namespace Cert.KernelIdeal.KernelValue

open Idealize.ShloMosaic Idealize.SL.Sem Idealize.ShloMosaic.ValueIdx Cert.KernelIdeal Cert.KernelIdeal.Gen

variable {F : FTy → Type} [FloatOps F]

/-! ## The two stores -/

/-- The staging buffer of the result, whole. -/
abbrev oM : Memref sig .tc .vmem S4x512x256 .bf16 := Memref.whole cc0_stg2_0
/-- Rows 2 to 511: what the first store loads and stores. -/
abbrev R1 : Rect S4x512x256 := Rect.unit (s := S4x512x256) ![0, 2, 0] S4x510x256.size inb_S4x512x256_S4x510x256_0_2_0
/-- Rows 0 to 3: what the second store loads and stores. -/
abbrev R2 : Rect S4x512x256 := Rect.unit (s := S4x512x256) ![0, 0, 0] S4x4x256.size inb_S4x512x256_S4x4x256_0_0_0

section Generic
variable {α : Type} {s u : Shape}

/-- An update read inside its window is the update, at the index less the start. -/
theorem updateSlice_of_mem (x : s.Idx → α) (upd : u.Idx → α) (start : Fin s.rank → Nat) (h : s.Slices start u) (i : s.Idx) (k : u.Idx)
    (hk : ∀ a : Fin s.rank, (i a).val = start a + (k (a.cast h.1.symm)).val) : updateSlice x upd start h i = upd k := by
  unfold updateSlice
  have hin : ∀ a : Fin s.rank, start a ≤ (i a).val ∧ (i a).val < start a + u.size (a.cast h.1.symm) := fun a => by
    have h1 := hk a
    have h2 := (k (a.cast h.1.symm)).isLt
    omega
  rw [dif_pos hin]
  congr 1
  funext c
  apply Fin.ext
  have h1 := hk (c.cast h.1)
  have e : (c.cast h.1).cast h.1.symm = c := rfl
  rw [e] at h1
  show (i (c.cast h.1)).val - start (c.cast h.1) = (k c).val
  omega

/-- An update read off its window on some axis is the operand. -/
theorem updateSlice_of_not_mem (x : s.Idx → α) (upd : u.Idx → α) (start : Fin s.rank → Nat) (h : s.Slices start u) (i : s.Idx)
    (a : Fin s.rank) (ha : (i a).val < start a ∨ start a + u.size (a.cast h.1.symm) ≤ (i a).val) :
    updateSlice x upd start h i = x i := by
  unfold updateSlice
  rw [dif_neg]
  intro hin
  have := hin a
  omega

end Generic

/-- The two read-modify-write stores at an index. -/
theorem stores_at {α : Type} (g0 : S4x512x256.Idx → α) (T : S4x509x256.Idx → α) (H : S4x3x256.Idx → α) (b : Fin 4) (r : Fin 512) (ch : Fin 256) :
    let g1 : S4x512x256.Idx → α := updateSlice g0 (updateSlice (fun x => g0 (R1.emb x)) T ![0, 1, 0] slices_S4x510x256_S4x509x256_0_1_0) ![0, 2, 0] ⟨rfl, inb_S4x512x256_S4x510x256_0_2_0⟩
    updateSlice g1 (updateSlice (fun x => g1 (R2.emb x)) H ![0, 0, 0] slices_S4x4x256_S4x3x256_0_0_0) ![0, 0, 0] ⟨rfl, inb_S4x512x256_S4x4x256_0_0_0⟩ (ix3 b r ch)
      = if h : r.val < 3 then H (ix3 b (⟨r.val, h⟩ : Fin 3) ch) else T (ix3 b (⟨r.val - 3, by have := r.isLt; omega⟩ : Fin 509) ch) := by
  intro g1
  have hg1 : ∀ (r' : Fin 512) (hr : 3 ≤ r'.val),
      g1 (ix3 b r' ch) = T (ix3 b (⟨r'.val - 3, by have := r'.isLt; omega⟩ : Fin 509) ch) := by
    intro r' hr
    refine (updateSlice_of_mem g0 _ ![0, 2, 0] _ (ix3 b r' ch)
      (ix3 b (⟨r'.val - 2, by have := r'.isLt; omega⟩ : Fin 510) ch) ?_).trans ?_
    · intro a
      match a with
      | ⟨0, _⟩ => show b.val = 0 + b.val; omega
      | ⟨1, _⟩ => show r'.val = 2 + (r'.val - 2); omega
      | ⟨2, _⟩ => show ch.val = 0 + ch.val; omega
    · refine updateSlice_of_mem (s := S4x510x256) _ T ![0, 1, 0] _ _ (ix3 b (⟨r'.val - 3, by have := r'.isLt; omega⟩ : Fin 509) ch) ?_
      intro a
      match a with
      | ⟨0, _⟩ => show b.val = 0 + b.val; omega
      | ⟨1, _⟩ => show r'.val - 2 = 1 + (r'.val - 3); omega
      | ⟨2, _⟩ => show ch.val = 0 + ch.val; omega
  by_cases h : r.val < 3
  · rw [dif_pos h]
    refine (updateSlice_of_mem g1 _ ![0, 0, 0] _ (ix3 b r ch) (ix3 b (⟨r.val, by omega⟩ : Fin 4) ch) ?_).trans ?_
    · intro a
      match a with
      | ⟨0, _⟩ => show b.val = 0 + b.val; omega
      | ⟨1, _⟩ => show r.val = 0 + r.val; omega
      | ⟨2, _⟩ => show ch.val = 0 + ch.val; omega
    · refine updateSlice_of_mem (s := S4x4x256) _ H ![0, 0, 0] _ _ (ix3 b (⟨r.val, h⟩ : Fin 3) ch) ?_
      intro a
      match a with
      | ⟨0, _⟩ => show b.val = 0 + b.val; omega
      | ⟨1, _⟩ => show r.val = 0 + r.val; omega
      | ⟨2, _⟩ => show ch.val = 0 + ch.val; omega
  · rw [dif_neg h]
    by_cases h4 : r.val < 4
    · refine (updateSlice_of_mem g1 _ ![0, 0, 0] _ (ix3 b r ch) (ix3 b (⟨r.val, h4⟩ : Fin 4) ch) ?_).trans ?_
      · intro a
        match a with
        | ⟨0, _⟩ => show b.val = 0 + b.val; omega
        | ⟨1, _⟩ => show r.val = 0 + r.val; omega
        | ⟨2, _⟩ => show ch.val = 0 + ch.val; omega
      · refine (updateSlice_of_not_mem (s := S4x4x256) _ H ![0, 0, 0] _ _ (1 : Fin 3) (Or.inr ?_)).trans ?_
        · show 0 + 3 ≤ r.val; omega
        · have e : R2.emb (ix3 b (⟨r.val, h4⟩ : Fin 4) ch) = ix3 b r ch := by
            funext a
            apply Fin.ext
            match a with
            | ⟨0, _⟩ => show 0 + 1 * b.val = b.val; omega
            | ⟨1, _⟩ => show 0 + 1 * r.val = r.val; omega
            | ⟨2, _⟩ => show 0 + 1 * ch.val = ch.val; omega
          show g1 (R2.emb (ix3 b (⟨r.val, h4⟩ : Fin 4) ch)) = _
          rw [e]
          exact hg1 r (by omega)
    · refine (updateSlice_of_not_mem g1 _ ![0, 0, 0] _ (ix3 b r ch) (1 : Fin 3) (Or.inr ?_)).trans (hg1 r (by omega))
      show 0 + 4 ≤ r.val; omega

/-- The two stores of the body leave the device's result block, whatever the staging buffer held before. -/
theorem stores_eq (f0 : (cc0_stg2_0 : Ref sig .tc).ty.Contents (Elt F)) (xv : Vec F S4x512x256 .f32) (kv : Vec F S4x256 .f32) (hv : Vec F S4x3x256 .f32) :
   let f1 := ((oM.access R1 : View sig .tc _ _ _).write (Elt F) f0 (updateSlice (oM.view.readAt (Elt F) R1.toLoadRect f0) (Spec.tailOut xv kv) ![0, 1, 0] slices_S4x510x256_S4x509x256_0_1_0) Finset.univ)
   ((oM.access R2 : View sig .tc _ _ _).write (Elt F) f1 (updateSlice (oM.view.readAt (Elt F) R2.toLoadRect f1) (Spec.headOut xv kv hv) ![0, 0, 0] slices_S4x4x256_S4x3x256_0_0_0) Finset.univ) = Spec.outSpec xv kv hv := by
  intro f1
  have e1 : f1 = updateSlice f0 (updateSlice (oM.view.readAt (Elt F) R1.toLoadRect f0) (Spec.tailOut xv kv) ![0, 1, 0] slices_S4x510x256_S4x509x256_0_1_0)
      ![0, 2, 0] ⟨rfl, inb_S4x512x256_S4x510x256_0_2_0⟩ :=
    View.write_whole_slice_unit cc0_stg2_0 ![0, 2, 0] S4x510x256.size inb_S4x512x256_S4x510x256_0_2_0 f0 _
  clear_value f1
  subst e1
  refine (View.write_whole_slice_unit cc0_stg2_0 ![0, 0, 0] S4x4x256.size inb_S4x512x256_S4x4x256_0_0_0 _ _).trans ?_
  funext i
  obtain ⟨b, r, ch, rfl⟩ : ∃ (b : Fin 4) (r : Fin 512) (ch : Fin 256), i = ix3 b r ch := ⟨i 0, i 1, i 2, eq_ix3 i⟩
  exact stores_at f0 (Spec.tailOut xv kv) (Spec.headOut xv kv hv) b r ch

/-! ## On the extended reals -/

section AtIdeal

/-- The all-zero word of the 16-bit format denotes zero. -/
theorem ofBits_bf16_zero : Ideal.ofBits .bf16 0x0000#16 = 0 := by simp [Ideal.ofBits, Ideal.ieee]

/-- The word 0x3F80 of the 16-bit format denotes one. -/
theorem ofBits_bf16_one : Ideal.ofBits .bf16 0x3F80#16 = 1 := by
  simp [Ideal.ofBits, Ideal.ieee, -EReal.coe_mul]; norm_num

/-- The gate a / (1 + e^(0 - a)) as the kernel spells it, read at an index. -/
theorem gate_apply {s : Shape} (v : FVec Ideal s .bf16) (j : s.Idx) :
    divf v (addf (broadcast s (Scalar.ofBits (F := Ideal) .bf16 0x3F80#16))
      (exp (subf (broadcast s (Scalar.ofBits (F := Ideal) .bf16 0x0000#16)) v))) j = Spec.silu (v j) := by
  show Ideal.div (v j) (Ideal.ofBits .bf16 0x3F80#16 + Ideal.exp (Ideal.ofBits .bf16 0x0000#16 - v j)) = Spec.silu (v j)
  rw [ofBits_bf16_one, ofBits_bf16_zero, zero_sub]
  rfl

/-- The gated head rows at an index. -/
theorem pay1_apply (v88 : FVec Ideal S4x3x256 .bf16) (j : S4x3x256.Idx) :
    k0_pay1 (F := Ideal) v88 j = Spec.silu (v88 j) := gate_apply v88 j

/-- The gated tail rows at an index. -/
theorem pay6_apply (v37 v43 : FVec Ideal S4x509x256 .bf16) (j : S4x509x256.Idx) :
    k0_pay6 (F := Ideal) v37 v43 j = Spec.silu ((v37 j : EReal) + (v43 j : EReal)) :=
  gate_apply (addf v37 v43) j

/-- The taps, narrowed, are the taps. -/
theorem pay2_apply (kv : Vec Ideal S4x256 .f32) (j : S4x256.Idx) : k0_pay2 (F := Ideal) kv j = kv j := by
  show shapeCast S4x256 kv shapeCasts_S4x256_S4x256 j = kv j
  rw [shapeCast_self]

/-- The block, narrowed, is the block. -/
theorem pay3_apply (xv : Vec Ideal S4x512x256 .f32) (j : S4x512x256.Idx) : k0_pay3 (F := Ideal) xv j = xv j := by
  show shapeCast S4x512x256 xv shapeCasts_S4x512x256_S4x512x256 j = xv j
  rw [shapeCast_self]

end AtIdeal

section Layout
variable {α : Type}

/-- Tap t, cut out of the taps as a row, flattened, given two unit axes and spread over a block, reads tap t of the channel. -/
theorem tap_apply {n : Nat} (w : S4x256.Idx → α) (off : Fin 2 → Nat) (hs : S4x256.Slices off S1x256)
    (hc1 : S1x256.ShapeCasts S256) (hc2 : S256.ShapeCasts S1x1x256) (hb : S1x1x256.Broadcasts ⟨3, ![4, n, 256]⟩)
    (t : Fin 4) (h0 : off 0 = t.val) (h1 : off 1 = 0) (b : Fin 4) (r : Fin n) (ch : Fin 256) :
    broadcastTo ⟨3, ![4, n, 256]⟩ (shapeCast S1x1x256 (shapeCast S256 (extractStridedSlice S1x256 off w hs) hc1) hc2) hb (ix3 b r ch)
      = w (ix2 t ch) := by
  refine (broadcastTo_apply _ hb (ix3 b r ch) (ix3 (0 : Fin 1) (0 : Fin 1) ch) ?_).trans ?_
  · intro a
    match a with
    | ⟨0, _⟩ => rfl
    | ⟨1, _⟩ => rfl
    | ⟨2, _⟩ => rfl
  refine (shapeCast_apply _ hc2 (ix3 (0 : Fin 1) (0 : Fin 1) ch) (ix1 ch) ?_).trans ?_
  · rw [Shape.rowMajor_val_one, Shape.rowMajor_val_three]
    show ch.val = (0 * 1 + 0) * 256 + ch.val
    omega
  refine (shapeCast_apply _ hc1 (ix1 ch) (ix2 (0 : Fin 1) ch) ?_).trans ?_
  · rw [Shape.rowMajor_val_one, Shape.rowMajor_val_two]
    show 0 * 256 + ch.val = ch.val
    omega
  refine extractStridedSlice_apply off w hs (ix2 (0 : Fin 1) ch) (ix2 t ch) ?_
  intro a
  match a with
  | ⟨0, _⟩ => show t.val = off 0 + 0; omega
  | ⟨1, _⟩ => show ch.val = off 1 + ch.val; omega

/-- Rows t onward of a block, read at a row. -/
theorem rows_apply {m n : Nat} (x : (⟨3, ![4, m, 256]⟩ : Shape).Idx → α) (off : Fin 3 → Nat)
    (hs : (⟨3, ![4, m, 256]⟩ : Shape).Slices off ⟨3, ![4, n, 256]⟩) (t : Nat) (h0 : off 0 = 0) (h1 : off 1 = t) (h2 : off 2 = 0)
    (b : Fin 4) (r : Fin n) (r' : Fin m) (hr : r'.val = r.val + t) (ch : Fin 256) :
    extractStridedSlice ⟨3, ![4, n, 256]⟩ off x hs (ix3 b r ch) = x (ix3 b r' ch) := by
  refine extractStridedSlice_apply off x hs (ix3 b r ch) (ix3 b r' ch) ?_
  intro a
  match a with
  | ⟨0, _⟩ => show b.val = off 0 + b.val; omega
  | ⟨1, _⟩ => show r'.val = off 1 + r.val; omega
  | ⟨2, _⟩ => show ch.val = off 2 + ch.val; omega

end Layout

section AtIdeal2

/-- Four products accumulated from the left, at an index. -/
theorem acc4_apply {s : Shape} (a0 b0 a1 b1 a2 b2 a3 b3 : FVec Ideal s .bf16) (j : s.Idx) :
    addf (addf (addf (mulf a0 b0) (mulf a1 b1)) (mulf a2 b2)) (mulf a3 b3) j
      = (a0 j : EReal) * (b0 j : EReal) + (a1 j : EReal) * (b1 j : EReal)
        + (a2 j : EReal) * (b2 j : EReal) + (a3 j : EReal) * (b3 j : EReal) := rfl

/-- Three products accumulated from the left, at an index. -/
theorem acc3_apply {s : Shape} (a0 b0 a1 b1 a2 b2 : FVec Ideal s .bf16) (j : s.Idx) :
    addf (addf (mulf a0 b0) (mulf a1 b1)) (mulf a2 b2) j
      = (a0 j : EReal) * (b0 j : EReal) + (a1 j : EReal) * (b1 j : EReal)
        + (a2 j : EReal) * (b2 j : EReal) := rfl

/-- The halo followed by the block's first three rows, read at a row. -/
theorem cat_pad (xv : Vec Ideal S4x512x256 .f32) (hv : Vec Ideal S4x3x256 .f32) (b : Fin 4) (m : Fin 6) (ch : Fin 256) :
    concatenate (α := Ideal .bf16) S4x6x256 1 [⟨S4x3x256, truncf .bf16 hv bitsLt_bf16_f32⟩,
        ⟨S4x3x256, extractStridedSlice S4x3x256 ![0, 0, 0] (k0_pay3 (F := Ideal) xv) slices_S4x512x256_o0_0_0_S4x3x256⟩]
      concatenates_S4x3x256_S4x3x256_S4x6x256_d1 (ix3 b m ch) = Spec.padAt xv hv b m.val ch := by
  by_cases hm : m.val < 3
  · refine (concatenate_pair_apply_left (t := S4x6x256) (s₁ := S4x3x256) (s₂ := S4x3x256) (1 : Fin 3) _ _ concatenates_S4x3x256_S4x3x256_S4x6x256_d1 (ix3 b m ch) rfl
      (ix3 b (⟨m.val, hm⟩ : Fin 3) ch) ?_).trans ?_
    · intro a
      match a with
      | ⟨0, _⟩ => rfl
      | ⟨1, _⟩ => rfl
      | ⟨2, _⟩ => rfl
    · unfold Spec.padAt
      rw [dif_pos hm]
      rfl
  · have hm' : m.val - 3 < 512 := by have := m.isLt; omega
    refine (concatenate_pair_apply_right (t := S4x6x256) (s₁ := S4x3x256) (s₂ := S4x3x256) (1 : Fin 3) _ _ concatenates_S4x3x256_S4x3x256_S4x6x256_d1 (ix3 b m ch) rfl rfl
      (ix3 b (⟨m.val - 3, by have := m.isLt; omega⟩ : Fin 3) ch) ?_ ?_).trans ?_
    · intro a ha
      match a with
      | ⟨0, _⟩ => rfl
      | ⟨1, _⟩ => exact absurd rfl ha
      | ⟨2, _⟩ => rfl
    · show (m.val - 3) + 3 = m.val
      omega
    · unfold Spec.padAt
      rw [dif_neg hm, dif_pos hm']
      refine (rows_apply (k0_pay3 (F := Ideal) xv) ![0, 0, 0] slices_S4x512x256_o0_0_0_S4x3x256 0 rfl rfl rfl b _
        (⟨m.val - 3, hm'⟩ : Fin 512) rfl ch).trans ?_
      exact pay3_apply xv _

end AtIdeal2

section AtIdeal3

theorem add_congr {a b c d : EReal} (h1 : a = c) (h2 : b = d) : a + b = c + d := by rw [h1, h2]
theorem mul_congr {a b c d : EReal} (h1 : a = c) (h2 : b = d) : a * b = c * d := by rw [h1, h2]

/-- One product at an index. -/
theorem mul1_apply {s : Shape} (a0 b0 : FVec Ideal s .bf16) (j : s.Idx) :
    mulf a0 b0 j = (a0 j : EReal) * (b0 j : EReal) := rfl

/-- From row 3 on, the halo followed by the block is the block, three rows back. -/
theorem padAt_block (xv : S4x512x256.Idx → EReal) (hv : S4x3x256.Idx → EReal) (b : Fin 4) (j : ℕ) (ch : Fin 256)
    (h3 : 3 ≤ j) (h : j - 3 < 512) : Spec.padAt xv hv b j ch = xv (ix3 b (⟨j - 3, h⟩ : Fin 512) ch) := by
  unfold Spec.padAt
  rw [dif_neg (by omega), dif_pos h]

/-- The head rows' accumulated sum at an index. -/
theorem pay8_apply (xv : Vec Ideal S4x512x256 .f32) (kv : Vec Ideal S4x256 .f32) (hv : Vec Ideal S4x3x256 .f32)
    (b : Fin 4) (r : Fin 3) (ch : Fin 256) :
    k0_pay8 (F := Ideal) (k0_pay2 kv) (k0_pay3 xv) hv (ix3 b r ch)
      = Spec.padAt xv hv b (r.val + 0) ch * (kv (ix2 (0 : Fin 4) ch) : EReal)
        + Spec.padAt xv hv b (r.val + 1) ch * (kv (ix2 (1 : Fin 4) ch) : EReal)
        + Spec.padAt xv hv b (r.val + 2) ch * (kv (ix2 (2 : Fin 4) ch) : EReal)
        + Spec.padAt xv hv b (r.val + 3) ch * (kv (ix2 (3 : Fin 4) ch) : EReal) := by
  refine (acc4_apply _ _ _ _ _ _ _ _ (ix3 b r ch)).trans ?_
  refine add_congr (add_congr (add_congr (mul_congr ?_ ?_) (mul_congr ?_ ?_)) (mul_congr ?_ ?_)) (mul_congr ?_ ?_)
  · exact (rows_apply _ ![0, 0, 0] slices_S4x6x256_o0_0_0_S4x3x256 0 rfl rfl rfl b r
      (⟨r.val + 0, by have := r.isLt; omega⟩ : Fin 6) rfl ch).trans (cat_pad xv hv b _ ch)
  · exact (tap_apply _ ![0, 0] slices_S4x256_o0_0_S1x256 _ _ broadcasts_S1x1x256_S4x3x256 (0 : Fin 4) rfl rfl b r ch).trans
      (pay2_apply kv _)
  · exact (rows_apply _ ![0, 1, 0] slices_S4x6x256_o0_1_0_S4x3x256 1 rfl rfl rfl b r
      (⟨r.val + 1, by have := r.isLt; omega⟩ : Fin 6) rfl ch).trans (cat_pad xv hv b _ ch)
  · exact (tap_apply _ ![1, 0] slices_S4x256_o1_0_S1x256 _ _ broadcasts_S1x1x256_S4x3x256 (1 : Fin 4) rfl rfl b r ch).trans
      (pay2_apply kv _)
  · exact (rows_apply _ ![0, 2, 0] slices_S4x6x256_o0_2_0_S4x3x256 2 rfl rfl rfl b r
      (⟨r.val + 2, by have := r.isLt; omega⟩ : Fin 6) rfl ch).trans (cat_pad xv hv b _ ch)
  · exact (tap_apply _ ![2, 0] slices_S4x256_o2_0_S1x256 _ _ broadcasts_S1x1x256_S4x3x256 (2 : Fin 4) rfl rfl b r ch).trans
      (pay2_apply kv _)
  · exact (rows_apply _ ![0, 3, 0] slices_S4x6x256_o0_3_0_S4x3x256 3 rfl rfl rfl b r
      (⟨r.val + 3, by have := r.isLt; omega⟩ : Fin 6) rfl ch).trans (cat_pad xv hv b _ ch)
  · exact (tap_apply _ ![3, 0] slices_S4x256_o3_0_S1x256 _ _ broadcasts_S1x1x256_S4x3x256 (3 : Fin 4) rfl rfl b r ch).trans
      (pay2_apply kv _)

/-- Row r + t - 3 of the block, cut out from row t on and read at row r - 3, is row r + t of the halo followed by the block. -/
theorem block_row (xv : Vec Ideal S4x512x256 .f32) (hv : Vec Ideal S4x3x256 .f32) (off : Fin 3 → Nat)
    (hs : S4x512x256.Slices off S4x509x256) (t : Nat) (ht : t ≤ 3) (h0 : off 0 = 0) (h1 : off 1 = t) (h2 : off 2 = 0)
    (b : Fin 4) (r : Fin 512) (h3 : 3 ≤ r.val) (ch : Fin 256) :
    extractStridedSlice S4x509x256 off (k0_pay3 (F := Ideal) xv) hs
        (ix3 b (⟨r.val - 3, by have := r.isLt; omega⟩ : Fin 509) ch)
      = Spec.padAt xv hv b (r.val + t) ch := by
  have hlt : r.val + t - 3 < 512 := by have := r.isLt; omega
  refine (rows_apply (k0_pay3 (F := Ideal) xv) off hs t h0 h1 h2 b _ (⟨r.val + t - 3, hlt⟩ : Fin 512) ?_ ch).trans ?_
  · show r.val + t - 3 = r.val - 3 + t
    omega
  · exact (pay3_apply xv _).trans (padAt_block xv hv b (r.val + t) ch (by omega) hlt).symm

/-- The tail rows' accumulated sum at an index. -/
theorem tail_apply (xv : Vec Ideal S4x512x256 .f32) (kv : Vec Ideal S4x256 .f32) (hv : Vec Ideal S4x3x256 .f32)
    (b : Fin 4) (r : Fin 512) (h3 : 3 ≤ r.val) (ch : Fin 256) :
    (k0_pay4 (F := Ideal) kv xv (ix3 b (⟨r.val - 3, by have := r.isLt; omega⟩ : Fin 509) ch) : EReal)
        + (k0_pay5 (F := Ideal) kv xv (ix3 b (⟨r.val - 3, by have := r.isLt; omega⟩ : Fin 509) ch) : EReal)
      = Spec.padAt xv hv b (r.val + 0) ch * (kv (ix2 (0 : Fin 4) ch) : EReal)
        + Spec.padAt xv hv b (r.val + 1) ch * (kv (ix2 (1 : Fin 4) ch) : EReal)
        + Spec.padAt xv hv b (r.val + 2) ch * (kv (ix2 (2 : Fin 4) ch) : EReal)
        + Spec.padAt xv hv b (r.val + 3) ch * (kv (ix2 (3 : Fin 4) ch) : EReal) := by
  refine add_congr ((acc3_apply _ _ _ _ _ _ _).trans
    (add_congr (add_congr (mul_congr ?_ ?_) (mul_congr ?_ ?_)) (mul_congr ?_ ?_))) ((mul1_apply _ _ _).trans (mul_congr ?_ ?_))
  · exact block_row xv hv ![0, 0, 0] slices_S4x512x256_o0_0_0_S4x509x256 0 (by omega) rfl rfl rfl b r h3 ch
  · exact (tap_apply _ ![0, 0] slices_S4x256_o0_0_S1x256 _ _ broadcasts_S1x1x256_S4x509x256 (0 : Fin 4) rfl rfl b _ ch).trans
      (pay2_apply kv _)
  · exact block_row xv hv ![0, 1, 0] slices_S4x512x256_o0_1_0_S4x509x256 1 (by omega) rfl rfl rfl b r h3 ch
  · exact (tap_apply _ ![1, 0] slices_S4x256_o1_0_S1x256 _ _ broadcasts_S1x1x256_S4x509x256 (1 : Fin 4) rfl rfl b _ ch).trans
      (pay2_apply kv _)
  · exact block_row xv hv ![0, 2, 0] slices_S4x512x256_o0_2_0_S4x509x256 2 (by omega) rfl rfl rfl b r h3 ch
  · exact (tap_apply _ ![2, 0] slices_S4x256_o2_0_S1x256 _ _ broadcasts_S1x1x256_S4x509x256 (2 : Fin 4) rfl rfl b _ ch).trans
      (pay2_apply kv _)
  · exact block_row xv hv ![0, 3, 0] slices_S4x512x256_o0_3_0_S4x509x256 3 (by omega) rfl rfl rfl b r h3 ch
  · exact (tap_apply _ ![3, 0] slices_S4x256_o3_0_S1x256 _ _ broadcasts_S1x1x256_S4x509x256 (3 : Fin 4) rfl rfl b _ ch).trans
      (pay2_apply kv _)

/-- On the extended reals the device's result block is the gated four-tap sum over the halo followed by the block. -/
theorem outSpec_ideal (xv : Vec Ideal S4x512x256 .f32) (kv : Vec Ideal S4x256 .f32) (hv : Vec Ideal S4x3x256 .f32) :
    Spec.outSpec (F := Ideal) xv kv hv = Spec.devFormula xv kv hv := by
  funext i
  obtain ⟨b, r, ch, rfl⟩ : ∃ (b : Fin 4) (r : Fin 512) (ch : Fin 256), i = ix3 b r ch := ⟨i 0, i 1, i 2, eq_ix3 i⟩
  show Spec.outSpec (F := Ideal) xv kv hv (ix3 b r ch)
    = Spec.silu (Spec.padAt xv hv b (r.val + 0) ch * (kv (ix2 (0 : Fin 4) ch) : EReal)
        + Spec.padAt xv hv b (r.val + 1) ch * (kv (ix2 (1 : Fin 4) ch) : EReal)
        + Spec.padAt xv hv b (r.val + 2) ch * (kv (ix2 (2 : Fin 4) ch) : EReal)
        + Spec.padAt xv hv b (r.val + 3) ch * (kv (ix2 (3 : Fin 4) ch) : EReal))
  by_cases h : r.val < 3
  · have e : Spec.outSpec (F := Ideal) xv kv hv (ix3 b r ch)
        = Spec.headOut xv kv hv (ix3 b (⟨r.val, h⟩ : Fin 3) ch) := dif_pos h
    rw [e]
    refine (pay1_apply _ _).trans (congrArg Spec.silu ?_)
    exact pay8_apply xv kv hv b ⟨r.val, h⟩ ch
  · have e : Spec.outSpec (F := Ideal) xv kv hv (ix3 b r ch)
        = Spec.tailOut xv kv (ix3 b (⟨r.val - 3, by have := r.isLt; omega⟩ : Fin 509) ch) := dif_neg h
    rw [e]
    refine (pay6_apply _ _ _).trans (congrArg Spec.silu ?_)
    exact tail_apply xv kv hv b r (by omega) ch

end AtIdeal3

/-- info: 'Cert.KernelIdeal.KernelValue.stores_eq' depends on axioms: [propext, Classical.choice, Quot.sound] -/
#guard_msgs in #print axioms stores_eq

/-- info: 'Cert.KernelIdeal.KernelValue.outSpec_ideal' depends on axioms: [propext, Classical.choice, Quot.sound] -/
#guard_msgs in #print axioms outSpec_ideal

end Cert.KernelIdeal.KernelValue

end
-- ==== Proof.Proto.lean ====
/-
  The cross-device protocol of the halo exchange, as a schedule of duties on three semaphores a device.

  Devices 0 … 31 stand in a line. Device c > 0 tells device c - 1, by one unit on that device's barrier
  semaphore, that its three-row halo buffer exists; device c < 31 waits for that unit, then copies the last
  three rows of its block into device c + 1's halo buffer, crediting its own send semaphore and device
  c + 1's receive semaphore. Device c > 0 waits for its receive semaphore before it reads the halo,
  device c < 31 for its send semaphore before it returns. So: the barrier cell of c < 31 has one duty
  (paid by c + 1, handing over c + 1's halo buffer), the receive cell of c > 0 one duty (paid by c - 1's
  copy, handing back the halo buffer filled with c - 1's last rows), the send cell of c < 31 one duty
  (paid by c's own copy, handing back the share of the source rows the copy read). Cells of the two end
  devices that nobody pays have no duty. Waiting is acyclic: a device waits on its barrier cell owing only
  a receive credit, and on its receive and send cells owing nothing.
-/
import proofs.«900794_g7700000000000795_dist_gconv1d_seqshard_i_b4_s512_c256_v7x_i32_bf16_1_alg».proof.Proof.Spec
import proofs.«900794_g7700000000000795_dist_gconv1d_seqshard_i_b4_s512_c256_v7x_i32_bf16_1_alg».proof.Proof.Gen.KernelIdeal.Launch
import proofs.«900794_g7700000000000795_dist_gconv1d_seqshard_i_b4_s512_c256_v7x_i32_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the line's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The line, closed to a ring for bookkeeping -/

abbrev nxt (c : Dev nD) : Dev nD := nxtD c
abbrev prv (c : Dev nD) : Dev nD := prvD c

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The printed conditions and device chains, read over the mesh. -/
theorem cond1_iff : ∀ c : Dev nD, (k0_cond1 c = 1#1 ↔ 0 < c.val) := by decide +kernel
theorem cond2_iff : ∀ c : Dev nD, (k0_cond2 c = 1#1 ↔ c.val < 31) := by decide +kernel
theorem dev1_val : ∀ c : Dev nD, k0_cond1 c = 1#1 → k0_dev1 c = (c.val + 31) % 32 := by decide +kernel
theorem dev2_val : ∀ c : Dev nD, k0_cond2 c = 1#1 → k0_dev2 c = (c.val + 1) % 32 := by decide +kernel

theorem dev1_eq (c : Dev nD) (h : k0_cond1 c = 1#1) : (⟨k0_dev1 c, k0_dev1_lt c h⟩ : Dev nD) = prv c := Fin.ext (dev1_val c h)
theorem dev2_eq (c : Dev nD) (h : k0_cond2 c = 1#1) : (⟨k0_dev2 c, k0_dev2_lt c h⟩ : Dev nD) = nxt c := Fin.ext (dev2_val c h)

/-- The device's position as the body computes it, and the three conditions the body tests on it. -/
abbrev pos (c : Dev nD) : BitVec 32 := Scalar.remsi (Scalar.divsi (Dev.word c) 1#32) 32#32
theorem isFirst_iff : ∀ c : Dev nD, (Scalar.cmpi .ne (Scalar.extui (Scalar.cmpi .eq (pos c) 0#32)) 0#32 = 1#1 ↔ c.val = 0) := by decide +kernel
theorem notFirst_iff : ∀ c : Dev nD, (Scalar.cmpi .ne (Scalar.extui (Scalar.cmpi .sgt (pos c) 0#32)) 0#32 = 1#1 ↔ 0 < c.val) := by decide +kernel
theorem notLast_iff : ∀ c : Dev nD, (Scalar.cmpi .ne (Scalar.extui (Scalar.cmpi .slt (pos c) 31#32)) 0#32 = 1#1 ↔ c.val < 31) := by decide +kernel

/-! ## The memrefs and cells -/

abbrev xM : Memref sig .tc .vmem S4x512x256 .f32 := Memref.whole cc0_stg0_0
abbrev kM : Memref sig .tc .vmem S4x256 .f32 := Memref.whole cc0_stg1_0
abbrev oM : Memref sig .tc .vmem S4x512x256 .bf16 := Memref.whole cc0_stg2_0
abbrev rM : Memref sig .tc .vmem S4x3x256 .f32 := Memref.whole cc0_scratch0
/-- The last three rows of the block's staging buffer: what the copy reads. -/
abbrev srcM : Memref sig .tc .vmem S4x3x256 .f32 :=
  (xM : Memref sig .tc .vmem S4x512x256 .f32).slice (Rect.unit (s := S4x512x256) ![0, 509, 0] S4x3x256.size inb_S4x512x256_S4x3x256_0_509_0) (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S4x3x256 .f32).view.dmaCredit
theorem N_pos : 0 < N := View.dmaCredit_pos _ (by decide)

/-! ## Contents -/

/-- What the staging buffers of the block and of the taps hold once fetched. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- What the copy from the device before lands in the halo buffer. -/
def landed (c : Dev nD) : Buf (Elt F) ((rM : Memref sig .tc .vmem S4x3x256 .f32).view.loc (c : Thread nD τ)) :=
  lastRows (xstg m ρ (prv c))

/-- The halo as the device reads it: zeros on the first device, else what landed. -/
def haloAt (c : Dev nD) : (cc0_scratch0 : Ref sig .tc).ty.Contents (Elt F) := haloOf (fun d => xstg m ρ d) c

/-- The device's result block. -/
def outAt (c : Dev nD) : (cc0_stg2_0 : Ref sig .tc).ty.Contents (Elt F) := outSpec (xstg m ρ c) (kstg m ρ c) (haloAt m ρ c)

def scrPts (c : Dev nD) (f : Buf (Elt F) ((rM : Memref sig .tc .vmem S4x3x256 .f32).view.loc (c : Thread nD τ))) : sProp 𝕄 :=
  (rM : Memref sig .tc .vmem S4x3x256 .f32).view.loc (c : Thread nD τ) ↦[(rM : Memref sig .tc .vmem S4x3x256 .f32).view.set]{fullShare} f
/-- The source rows at the half share the copy reads them at. -/
def srcPts (c : Dev nD) : sProp 𝕄 :=
  (srcM : Memref sig .tc .vmem S4x3x256 .f32).view.loc (c : Thread nD τ) ↦[(srcM : Memref sig .tc .vmem S4x3x256 .f32).view.set]{fullShare.right} xstg m ρ c

omit [FloatOps F] in
instance scrPts_storable (c : Dev nD) (f) : BI.Storable (upEmb : UEmb _ 𝕄) (scrPts (F := F) c f) := by unfold scrPts; infer_instance
omit [FloatOps F] in
instance srcPts_storable (c : Dev nD) : BI.Storable (upEmb : UEmb _ 𝕄) (srcPts (F := F) m ρ c) := by unfold srcPts; infer_instance

omit [FloatOps F] in
theorem scr_set : (rM : Memref sig .tc .vmem S4x3x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What device nxt c's signal hands c: that device's halo buffer and that it is at round 0 of its receive cell. -/
def barPay (c : Dev nD) : sProp 𝕄 := iprop((∃ f, scrPts (nxt c) f) ∗ reached ER (recvCell (nxt c)) 0)
def recvPay (c : Dev nD) : sProp 𝕄 := scrPts c (landed m ρ c)
def sendPay (c : Dev nD) : sProp 𝕄 := srcPts m ρ c

/-- The cells somebody pays: the barrier and send cells of every device but the last, the receive cells of every device but the first. -/
abbrev Active (g : GSem nD τ sig) : Prop :=
  g.1.2 = .tc ∧ ((g.2 = .reg barS ∧ g.1.1.val < 31) ∨ (g.2 = .dma sendS.sem ∧ g.1.1.val < 31) ∨ (g.2 = .dma recvS.sem ∧ 0 < g.1.1.val))

/-- One round, round 0, one duty on every active cell: a unit on a barrier cell, the halo's credit on a send or receive cell. -/
def lineRd : Rounds.Schedule (GSem nD τ sig) Unit 𝕄 where
  duties g r := if r = 0 ∧ Active g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance lineRd_payload_storable (g : GSem nD τ sig) (r : ℕ) (d : Unit) :
    BI.Storable (upEmb : UEmb _ 𝕄) ((lineRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val < 31) : (lineRd (F := F) m ρ).duties (barCell c) 0 = {()} := by
  dsimp only [lineRd]; exact if_pos ⟨rfl, rfl, .inl ⟨rfl, h⟩⟩
omit [FloatOps F] in
theorem duties_send (h : c.val < 31) : (lineRd (F := F) m ρ).duties (sendCell c) 0 = {()} := by
  dsimp only [lineRd]; exact if_pos ⟨rfl, rfl, .inr (.inl ⟨rfl, h⟩)⟩
omit [FloatOps F] in
theorem duties_recv (h : 0 < c.val) : (lineRd (F := F) m ρ).duties (recvCell c) 0 = {()} := by
  dsimp only [lineRd]; exact if_pos ⟨rfl, rfl, .inr (.inr ⟨rfl, h⟩)⟩
omit [FloatOps F] in
theorem duties_later (g : GSem nD τ sig) : ∀ r, 1 ≤ r → (lineRd (F := F) m ρ).duties g r = ∅ :=
  fun r hr => by dsimp only [lineRd]; rw [if_neg fun h => by omega]
omit [FloatOps F] in
/-- The last device's barrier and send cells, and the first device's receive cell, have no duty at all. -/
theorem duties_bar_last (h : ¬ c.val < 31) : ∀ r, 0 ≤ r → (lineRd (F := F) m ρ).duties (barCell c) r = ∅ :=
  fun r _ => by
    dsimp only [lineRd]
    refine if_neg fun hh => ?_
    rcases hh.2.2 with h1 | h1 | h1
    · exact h h1.2
    · exact send_ne_bar h1.1.symm
    · exact recv_ne_bar h1.1.symm
omit [FloatOps F] in
theorem duties_send_last (h : ¬ c.val < 31) : ∀ r, 0 ≤ r → (lineRd (F := F) m ρ).duties (sendCell c) r = ∅ :=
  fun r _ => by
    dsimp only [lineRd]
    refine if_neg fun hh => ?_
    rcases hh.2.2 with h1 | h1 | h1
    · exact send_ne_bar h1.1
    · exact h h1.2
    · exact send_ne_recv h1.1
omit [FloatOps F] in
theorem duties_recv_first (h : ¬ 0 < c.val) : ∀ r, 0 ≤ r → (lineRd (F := F) m ρ).duties (recvCell c) r = ∅ :=
  fun r _ => by
    dsimp only [lineRd]
    refine if_neg fun hh => ?_
    rcases hh.2.2 with h1 | h1 | h1
    · exact recv_ne_bar h1.1
    · exact recv_ne_send h1.1
    · exact h h1.2

omit [FloatOps F] in
theorem amount_bar (d : Unit) : (lineRd (F := F) m ρ).amount (barCell c) 0 d = 1 := by dsimp only [lineRd]; exact if_pos rfl
omit [FloatOps F] in
theorem amount_send (d : Unit) : (lineRd (F := F) m ρ).amount (sendCell c) 0 d = N := by dsimp only [lineRd]; exact if_neg send_ne_bar
omit [FloatOps F] in
theorem amount_recv (d : Unit) : (lineRd (F := F) m ρ).amount (recvCell c) 0 d = N := by dsimp only [lineRd]; exact if_neg recv_ne_bar

omit [FloatOps F] in
theorem expect_bar (h : c.val < 31) : (lineRd (F := F) m ρ).expect (barCell c) 0 = 1 := by
  unfold Schedule.expect Schedule.amountOf; rw [duties_bar m ρ c h, Finset.sum_singleton, amount_bar]
omit [FloatOps F] in
theorem expect_send (h : c.val < 31) : (lineRd (F := F) m ρ).expect (sendCell c) 0 = N := by
  unfold Schedule.expect Schedule.amountOf; rw [duties_send m ρ c h, Finset.sum_singleton, amount_send]
omit [FloatOps F] in
theorem expect_recv (h : 0 < c.val) : (lineRd (F := F) m ρ).expect (recvCell c) 0 = N := by
  unfold Schedule.expect Schedule.amountOf; rw [duties_recv m ρ c h, Finset.sum_singleton, amount_recv]

omit [FloatOps F] in
theorem payload_bar (d : Unit) : (lineRd (F := F) m ρ).payload (barCell c) 0 d = barPay c := by dsimp only [lineRd]; rw [if_pos rfl]
omit [FloatOps F] in
theorem payload_send (d : Unit) : (lineRd (F := F) m ρ).payload (sendCell c) 0 d = sendPay m ρ c := by
  dsimp only [lineRd]; rw [if_neg send_ne_bar, if_neg send_ne_recv, if_pos rfl]
omit [FloatOps F] in
theorem payload_recv (d : Unit) : (lineRd (F := F) m ρ).payload (recvCell c) 0 d = recvPay m ρ c := by
  dsimp only [lineRd]; rw [if_neg recv_ne_bar, if_pos rfl]

omit [FloatOps F] in
theorem rest_bar (h : c.val < 31) : bigSep ((lineRd (F := F) m ρ).duties (barCell c) 0 \ ∅) (fun d => (lineRd (F := F) m ρ).payload (barCell c) 0 d) = barPay c := by
  rw [Finset.sdiff_empty, duties_bar m ρ c h, bigSep_singleton, payload_bar]
omit [FloatOps F] in
theorem rest_send (h : c.val < 31) : bigSep ((lineRd (F := F) m ρ).duties (sendCell c) 0 \ ∅) (fun d => (lineRd (F := F) m ρ).payload (sendCell c) 0 d) = sendPay m ρ c := by
  rw [Finset.sdiff_empty, duties_send m ρ c h, bigSep_singleton, payload_send]
omit [FloatOps F] in
theorem rest_recv (h : 0 < c.val) : bigSep ((lineRd (F := F) m ρ).duties (recvCell c) 0 \ ∅) (fun d => (lineRd (F := F) m ρ).payload (recvCell c) 0 d) = recvPay m ρ c := by
  rw [Finset.sdiff_empty, duties_recv m ρ c h, bigSep_singleton, payload_recv]

end Sched

/-! ## What each device owes at launch; the levels -/

/-- Device c owes the next device's receive cell the halo's credit (unless it is the last) and the device
    before it one barrier unit (unless it is the first); the signal, which comes first, peels the last summand. -/
def Osend (c : Dev nD) : CellTallies nD τ sig Unit := if c.val < 31 then tallyAt (recvCell (nxt c)) () N else 0
def Osig (c : Dev nD) : CellTallies nD τ sig Unit := if 0 < c.val then tallyAt (barCell (prv c)) () 1 else 0
def O₀ (c : Dev nD) : CellTallies nD τ sig Unit := Osend c + Osig c

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem Osend_pos {c : Dev nD} {g : GSem nD τ sig} {u : Unit} (h : 0 < Osend c g u) : g = recvCell (nxt c) := by
  unfold Osend at h
  split at h
  · rw [tallyAt_apply] at h
    by_contra hn
    rw [if_neg (fun h' => hn h'.1)] at h
    exact Nat.lt_irrefl 0 h
  · exact absurd h (Nat.lt_irrefl 0)
theorem Osig_pos {c : Dev nD} {g : GSem nD τ sig} {u : Unit} (h : 0 < Osig c g u) : g = barCell (prv c) := by
  unfold Osig at h
  split at h
  · rw [tallyAt_apply] at h
    by_contra hn
    rw [if_neg (fun h' => hn h'.1)] at h
    exact Nat.lt_irrefl 0 h
  · exact absurd h (Nat.lt_irrefl 0)
theorem O₀_pos {c : Dev nD} {g : GSem nD τ sig} {u : Unit} (h : 0 < O₀ c g u) : g = recvCell (nxt c) ∨ g = barCell (prv c) := by
  unfold O₀ at h
  rw [Pi.add_apply, Finsupp.add_apply] at h
  rcases Nat.add_pos_iff_pos_or_pos.mp h with h1 | h1
  · exact .inl (Osend_pos h1)
  · exact .inr (Osig_pos h1)

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the next device's receive credit only: a receive cell, above its barrier cell. -/
theorem mayWait_bar (c : Dev nD) :
    (levAts L lv : sProp 𝕄) ⊢ MayWait (c : Thread nD τ) (.reg barS) () (tallyAt (recvCell (nxt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens: its own three, the barrier cell of the device before it
    (its signal), the receive cell of the device after it (its copy). -/
def invs (K : Dev nD × Fin 3 → ℕ) (c : Dev nD) : sProp 𝕄 :=
  iprop(cellInv ER (lineRd m ρ) (K (c, 0)) (barCell c) ∗ cellInv ER (lineRd m ρ) (K (c, 1)) (sendCell c) ∗ cellInv ER (lineRd m ρ) (K (c, 2)) (recvCell c)
    ∗ cellInv ER (lineRd m ρ) (K (prv c, 0)) (barCell (prv c))
    ∗ cellInv ER (lineRd m ρ) (K (nxt c, 2)) (recvCell (nxt c)))

instance invs_persistent (K : Dev nD × Fin 3 → ℕ) (c : Dev nD) : BI.Persistent (invs m ρ K c) := by unfold invs; infer_instance

/-- The ghost state device c starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-- The credit the others owe a device's cells at launch: a barrier unit unless it is the last, the halo's credit unless it is the first. -/
def barCr (c : Dev nD) : ℕ := if c.val < 31 then 1 else 0
def recvCr (c : Dev nD) : ℕ := if 0 < c.val then N else 0

def start (c : Dev nD) : sProp 𝕄 :=
  iprop((∃ K, ghost m ρ K c) ∗ cred (tallyAt (barCell c) () (barCr c)) ∗ cred (tallyAt (recvCell c) () (recvCr c)) ∗ levAts L lv)

def Φ₀ (c : Dev nD) : sProp 𝕄 := iprop(start m ρ c ∗ ∃ f, scrPts c f)
/-- After the point: the halo buffer at some contents, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from and what it must leave. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (kstg m ρ c) ∗ stg c cc0_stg2_0 (outAt m ρ c))

end Cert.KernelIdeal.Proto

end
-- ==== Proof.Body.lean ====
/-
  One device's kernel body, stepped from the line's invariant.

  Whatever its place in the line, a device ends holding: its block's and the taps' staging buffers as it
  found them, its result buffer at the result block (rows 3 … 511 from its own block, rows 0 … 2 from the
  halo followed by its first rows), its halo buffer, and its send and receive cells closed at zero.
  The three places differ in which of the conditional steps run: the first device has nobody to signal and
  fills its halo with zeros; the last has nobody to copy to; every other device signals the device before
  it, waits for the device after it, copies its last three rows there while it computes from the other half
  share of its block, waits for the rows from the device before it, and waits for its own copy.
-/
import proofs.«900794_g7700000000000795_dist_gconv1d_seqshard_i_b4_s512_c256_v7x_i32_bf16_1_alg».proof.Proof.Proto
import Idealize.ShloMosaic.Lib.Pipeline.Value

noncomputable section

namespace Cert.KernelIdeal.Body

open Cert.KernelIdeal Cert.KernelIdeal.Gen Cert.KernelIdeal.Spec Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 3 → ℕ)

open Idealize.ShloMosaic.Tactic

/-! ## Reading and writing the buffers -/

abbrev rK : Rect S4x256 := Rect.unit (s := S4x256) ![0, 0] S4x256.size inb_S4x256_S4x256_0_0
abbrev rX : Rect S4x512x256 := Rect.unit (s := S4x512x256) ![0, 0, 0] S4x512x256.size inb_S4x512x256_S4x512x256_0_0_0
abbrev rH : Rect S4x3x256 := Rect.unit (s := S4x3x256) ![0, 0, 0] S4x3x256.size inb_S4x3x256_S4x3x256_0_0_0
abbrev R1 : Rect S4x512x256 := Rect.unit (s := S4x512x256) ![0, 2, 0] S4x510x256.size inb_S4x512x256_S4x510x256_0_2_0
abbrev R2 : Rect S4x512x256 := Rect.unit (s := S4x512x256) ![0, 0, 0] S4x4x256.size inb_S4x512x256_S4x4x256_0_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_k (f : (cc0_stg1_0 : Ref sig .tc).ty.Contents (Elt F)) : (kM : Memref sig .tc .vmem S4x256 .f32).view.readAt (Elt F) rK.toLoadRect f = f :=
  Memref.readAt_unit_zero (Elt F) cc0_stg1_0 hz2 _ f
omit [FloatOps F] in
theorem read_x (f : (cc0_stg0_0 : Ref sig .tc).ty.Contents (Elt F)) : (xM : Memref sig .tc .vmem S4x512x256 .f32).view.readAt (Elt F) rX.toLoadRect f = f :=
  Memref.readAt_unit_zero (Elt F) cc0_stg0_0 hz3 _ f
omit [FloatOps F] in
theorem read_h (f : (cc0_scratch0 : Ref sig .tc).ty.Contents (Elt F)) : (rM : Memref sig .tc .vmem S4x3x256 .f32).view.readAt (Elt F) rH.toLoadRect f = f :=
  Memref.readAt_unit_zero (Elt F) cc0_scratch0 hz3 _ f
omit [FloatOps F] in
theorem write_h (f w : (cc0_scratch0 : Ref sig .tc).ty.Contents (Elt F)) :
    ((rM : Memref sig .tc .vmem S4x3x256 .f32).access rH : View sig .tc _ _ _).write (Elt F) f w Finset.univ = w :=
  Memref.write_access_unit_zero_univ (Elt F) cc0_scratch0 hz3 _ f w

omit [FloatOps F] in
/-- The copy's source view reads the block's last three rows. -/
theorem read_src (xs : (cc0_stg0_0 : Ref sig .tc).ty.Contents (Elt F)) :
    (srcM : Memref sig .tc .vmem S4x3x256 .f32).view.read (Elt F) xs = lastRows xs := by
  funext i
  show xs _ = xs _
  congr 1
  funext a
  apply Fin.ext
  match a with
  | ⟨0, _⟩ => show 0 + 1 * (i 0).val = (i 0).val; omega
  | ⟨1, _⟩ => show 509 + 1 * (i 1).val = 509 + (i 1).val; omega
  | ⟨2, _⟩ => show 0 + 1 * (i 2).val = (i 2).val; omega

omit [FloatOps F] in
/-- What the copy leaves in the next device's halo buffer, whatever it held. -/
theorem landed_eq (c : Dev nD) (fd : Buf (Elt F) ((rM : Memref sig .tc .vmem S4x3x256 .f32).view.loc (c : Thread nD τ))) (fs : (cc0_stg0_0 : Ref sig .tc).ty.Contents (Elt F)) :
    (rM : Memref sig .tc .vmem S4x3x256 .f32).view.write (Elt F) fd ((srcM : Memref sig .tc .vmem S4x3x256 .f32).view.read (Elt F) fs) Finset.univ = lastRows fs := by
  rw [read_src]
  exact View.write_whole_univ _ _ _

omit [FloatOps F] in
theorem credit_src : (srcM : Memref sig .tc .vmem S4x3x256 .f32).view.dmaCredit = N := rfl

omit [FloatOps F] in
/-- The whole share of the block's staging buffer is its two halves; -/
theorem x_halves (c : Dev nD) (f : (cc0_stg0_0 : Ref sig .tc).ty.Contents (Elt F)) :
    ((((c : Thread nD τ).loc cc0_stg0_0) ↦{fullShare} f : sProp 𝕄))
      ⊣⊢ iprop((((c : Thread nD τ).loc cc0_stg0_0) ↦{fullShare.left} f) ∗ (((c : Thread nD τ).loc cc0_stg0_0) ↦{fullShare.right} f)) :=
  pointsTo_share (PosShare.mem_left_op_right fullShare)
omit [FloatOps F] in
/-- and the right half is the last three rows and the rest. -/
theorem x_rows (c : Dev nD) (f : (cc0_stg0_0 : Ref sig .tc).ty.Contents (Elt F)) :
    ((((c : Thread nD τ).loc cc0_stg0_0) ↦{fullShare.right} f : sProp 𝕄))
      ⊣⊢ iprop((((c : Thread nD τ).loc cc0_stg0_0) ↦[(srcM : Memref sig .tc .vmem S4x3x256 .f32).view.set]{fullShare.right} f)
        ∗ (((c : Thread nD τ).loc cc0_stg0_0) ↦[Finset.univ \ (srcM : Memref sig .tc .vmem S4x3x256 .f32).view.set]{fullShare.right} f)) :=
  pointsTo_split_subset (Finset.subset_univ _)

omit [FloatOps F] in
/-- The staging buffers held whole, spelt through their memrefs' views. -/
theorem x_view (c : Dev nD) (q : PosShare TreeShare) (f : (cc0_stg0_0 : Ref sig .tc).ty.Contents (Elt F)) :
    (((c : Thread nD τ).loc cc0_stg0_0) ↦{q} f : sProp 𝕄) = ((xM : Memref sig .tc .vmem S4x512x256 .f32).view.loc (c : Thread nD τ) ↦[(xM : Memref sig .tc .vmem S4x512x256 .f32).view.set]{q} f) := by
  rw [View.set_whole]
omit [FloatOps F] in
theorem k_view (c : Dev nD) (f : (cc0_stg1_0 : Ref sig .tc).ty.Contents (Elt F)) :
    (((c : Thread nD τ).loc cc0_stg1_0) ↦{fullShare} f : sProp 𝕄) = ((kM : Memref sig .tc .vmem S4x256 .f32).view.loc (c : Thread nD τ) ↦[(kM : Memref sig .tc .vmem S4x256 .f32).view.set]{fullShare} f) := by
  rw [View.set_whole]
omit [FloatOps F] in
theorem o_view (c : Dev nD) (f : (cc0_stg2_0 : Ref sig .tc).ty.Contents (Elt F)) :
    (((c : Thread nD τ).loc cc0_stg2_0) ↦{fullShare} f : sProp 𝕄) = ((oM : Memref sig .tc .vmem S4x512x256 .bf16).view.loc (c : Thread nD τ) ↦[(oM : Memref sig .tc .vmem S4x512x256 .bf16).view.set]{fullShare} f) := by
  rw [View.set_whole]

/-! ## The schedule's entries as the symbolic run reads them: payloads spelt as the points-to themselves -/

theorem payload_bar_prv (c : Dev nD) (d : Unit) :
    (lineRd (F := F) m ρ).payload (barCell (prv c)) 0 d
      = iprop((∃ f, (rM : Memref sig .tc .vmem S4x3x256 .f32).view.loc (c : Thread nD τ) ↦[(rM : Memref sig .tc .vmem S4x3x256 .f32).view.set]{fullShare} f) ∗ reached ER (recvCell c) 0) := by
  rw [payload_bar]; unfold barPay scrPts; rw [nxt_prv]
theorem duties_bar_prv (c : Dev nD) (h : 0 < c.val) : (lineRd (F := F) m ρ).duties (barCell (prv c)) 0 = {()} :=
  duties_bar m ρ (prv c) (by have hlt : c.val < 32 := c.isLt; show (c.val + 31) % 32 < 31; omega)
theorem payload_recv_pts (c : Dev nD) (d : Unit) :
    (lineRd (F := F) m ρ).payload (recvCell c) 0 d
      = ((rM : Memref sig .tc .vmem S4x3x256 .f32).view.loc (c : Thread nD τ) ↦[(rM : Memref sig .tc .vmem S4x3x256 .f32).view.set]{fullShare} landed m ρ c) := by
  rw [payload_recv]; rfl
theorem payload_bar_own (c : Dev nD) (d : Unit) :
    (lineRd (F := F) m ρ).payload (barCell c) 0 d
      = iprop((∃ f, (rM : Memref sig .tc .vmem S4x3x256 .f32).view.loc (nxt c : Thread nD τ) ↦[(rM : Memref sig .tc .vmem S4x3x256 .f32).view.set]{fullShare} f) ∗ reached ER (recvCell (nxt c)) 0) := by
  rw [payload_bar]; unfold barPay scrPts; rfl
theorem payload_send_pts (c : Dev nD) (d : Unit) :
    (lineRd (F := F) m ρ).payload (sendCell c) 0 d
      = ((srcM : Memref sig .tc .vmem S4x3x256 .f32).view.loc (c : Thread nD τ) ↦[(srcM : Memref sig .tc .vmem S4x3x256 .f32).view.set]{fullShare.right} xstg m ρ c) := by
  rw [payload_send]; rfl
attribute [local sl_rounds] payload_bar_own amount_bar amount_send amount_recv payload_recv_pts payload_send_pts duties_bar_prv duties_recv duties_bar duties_send expect_recv expect_bar expect_send
attribute [local sl_rounds high] payload_bar_prv duties_bar_prv

def bodyPre (c : Dev nD) : sProp 𝕄 :=
  iprop((ghost m ρ K c ∗ cred (tallyAt (barCell c) () (barCr c)) ∗ cred (tallyAt (recvCell c) () (recvCr c)) ∗ levAts L lv ∗ ∃ f, scrPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The copy to the next device by the send rule at the line's cells. -/
theorem wp_send_line (c n : Dev nD) (hn : n = nxt c) (h1 : c.val < 31)
    {hsc : (rM : Memref sig (Dev.tc n : Thread nD τ).2.kind .vmem S4x3x256 .f32).view.ref.isScScratch = false}
    {hsrc : (srcM : Memref sig .tc .vmem S4x3x256 .f32).view.WordExact} {hdst : (rM : Memref sig .tc .vmem S4x3x256 .f32).view.WordExact}
    {hsem : DmaTarget.Typed .vmem (.dma recvS.sem) (.remote (Dev.tc n : Thread nD τ) (rM : Memref sig .tc .vmem S4x3x256 .f32) (.dma sendS.sem) hsc)}
    {α : Type} {Q : α → sProp 𝕄} {k : PUnit → Prog (TpuEff nD τ sig (Elt F) Λ₀ .tc) α}
    (fn : Buf (Elt F) ((rM : Memref sig .tc .vmem S4x3x256 .f32).view.loc (nxt c : Thread nD τ))) (W : Waits sig Unit) :
    iprop(cellInv ER (lineRd m ρ) (K (c, 1)) (sendCell c) ∗ cellInv ER (lineRd m ρ) (K (nxt c, 2)) (recvCell (nxt c))
        ∗ srcPts m ρ c ∗ scrPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) rM (.dma sendS.sem) hsc) (.dma recvS.sem) hsrc hdst hsem) k) Q) := by
  subst hn
  have hn0 : 0 < (nxt c).val := by show 0 < (c.val + 1) % 32; omega
  unfold srcPts scrPts
  exact Rounds.wp_send_pointsTo 𝒱₀ ER (lineRd m ρ) (c : Thread nD τ) none (κ₁ := K (c, 1)) (κ₂ := K (nxt c, 2))
    (src := srcM) (dst := rM) (c' := (nxt c : Thread nD τ)) (q := fullShare.right) (fs := xstg m ρ c)
    (r₁ := 0) (r₂ := 0) (d₁ := ()) (d₂ := ()) (fd := fn)
    (by rw [duties_send m ρ c h1]; exact Finset.mem_singleton_self _) (by rw [duties_recv m ρ (nxt c) hn0]; exact Finset.mem_singleton_self _)
    () () N rfl (amount_send m ρ c ()) (amount_recv m ρ (nxt c) ()) 0 (by rw [zero_add]) (W := W)
    (by rw [payload_send]; exact BI.Entails.refl _)
    (by rw [payload_recv]; unfold recvPay scrPts; rw [landed_eq, landed, prv_nxt])

set_option maxHeartbeats 400000 in
/-- A device strictly inside the line: it signals, waits, copies, computes, receives, and waits for its copy. -/
theorem sound_body_mid (hst : ∀ (f0 : (cc0_stg2_0 : Ref sig .tc).ty.Contents (Elt F)) (xv : Vec F S4x512x256 .f32) (kv : Vec F S4x256 .f32) (hv : Vec F S4x3x256 .f32),
      ((oM.access R2 : View sig .tc _ _ _).write (Elt F) ((oM.access R1 : View sig .tc _ _ _).write (Elt F) f0 (updateSlice (oM.view.readAt (Elt F) R1.toLoadRect f0) (tailOut xv kv) ![0, 1, 0] slices_S4x510x256_S4x509x256_0_1_0) Finset.univ)
        (updateSlice (oM.view.readAt (Elt F) R2.toLoadRect ((oM.access R1 : View sig .tc _ _ _).write (Elt F) f0 (updateSlice (oM.view.readAt (Elt F) R1.toLoadRect f0) (tailOut xv kv) ![0, 1, 0] slices_S4x510x256_S4x509x256_0_1_0) Finset.univ)) (headOut xv kv hv) ![0, 0, 0] slices_S4x4x256_S4x3x256_0_0_0) Finset.univ) = outSpec xv kv hv)
    (c : Dev nD) (h0 : 0 < c.val) (h1 : c.val < 31) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr h0
  have hc2 : k0_cond2 c = 1#1 := (cond2_iff c).mpr h1
  have hc3 : ¬ (Scalar.cmpi .ne (Scalar.extui (Scalar.cmpi .eq (pos c) 0#32)) 0#32 = 1#1) := fun h => by have := (isFirst_iff c).mp h; omega
  have hc4 : Scalar.cmpi .ne (Scalar.extui (Scalar.cmpi .sgt (pos c) 0#32)) 0#32 = 1#1 := (notFirst_iff c).mpr h0
  have hc5 : Scalar.cmpi .ne (Scalar.extui (Scalar.cmpi .slt (pos c) 31#32)) 0#32 = 1#1 := (notLast_iff c).mpr h1
  have hprv : (prv c).val < 31 := by show (c.val + 31) % 32 < 31; omega
  have hbc : barCr c = 1 := if_pos h1
  have hrc : recvCr c = N := if_pos h0
  simp only [cc0_body_eq_skeleton]; unfold cc0_body_skel
  simp only [k0_part1_eq_skeleton, k0_part2_eq_skeleton]; unfold k0_part1_skel k0_part2_skel
  simp only [semSignalWord, semWaitWord, storeSubelements, Prog.lift, Prog.bind_op, Prog.bind_ret, Prog.pure_eq_ret, wp_deviceId]
  simp only [dif_pos hc1, dif_pos hc2, dif_neg hc3, dif_pos hc4, dif_pos hc5, Prog.bind_op, Prog.bind_ret, Prog.pure_eq_ret]
  unfold bodyPre ghost Proto.invs
  rw [hbc, hrc]
  iintro ⟨⟨⟨⟨⟨#HIbar, #HIsnd, #HIrcv, #HIbarP, #HIrcvN⟩, HatB, HatS, HatV, #HrBP, #HrVN, #HrS, #HrV, HtBP, HtVN, HtS⟩, HcB, HcV, #Hlev, ⟨%f0, Hscr⟩⟩,
    Ho, ⟨%d0, %g0, %hg0, Hx⟩, ⟨%d1, %g1, %hg1, Hk⟩, ⟨%d2, %g2, %hg2, Hout⟩⟩, Hcont⟩
  have hx : g0 = xstg m ρ c := by rw [hg0]; unfold Dat.before; rw [if_pos (fetch0_0 t₀)]; rfl
  subst hx
  have hk : g1 = kstg m ρ c := by rw [hg1]; unfold Dat.before; rw [if_pos (fetch0_1 t₀)]; rfl
  subst hk
  unfold Dat.owesAt Pipeline.owesWithin
  icases Ho with ⟨%W, %hW, HO⟩
  rw [show (dats m ρ 0 c).owed t₀.castSucc = O₀ c from rfl]
  -- the signal to the device before (its barrier duty, paid with this device's halo buffer) and the wait on the own barrier
  -- cell, owing the next device's receive credit, are run symbolically: the next device's halo buffer comes with the wait.
  -- Before the run the block's staging buffer is cut: one half share to read it, of the other half the last rows to the copy
  rw [show O₀ c = tallyAt (recvCell (nxt c)) () N + tallyAt (barCell (prv c)) () 1 from by unfold O₀ Osend Osig; rw [if_pos h1, if_pos h0]]
  simp only [dev1_eq c hc1]
  ihave Hscr := (show (scrPts c f0 : sProp 𝕄) ⊢ iprop(∃ f, (rM : Memref sig .tc .vmem S4x3x256 .f32).view.loc (c : Thread nD τ) ↦[(rM : Memref sig .tc .vmem S4x3x256 .f32).view.set]{fullShare} f) from by unfold scrPts; iintro H; iexists f0; iexact H) $$ Hscr
  ihave Hx2 := (x_halves c (xstg m ρ c)).1 $$ Hx
  icases Hx2 with ⟨HxL, HxR⟩
  ihave Hx3 := (x_rows c (xstg m ρ c)).1 $$ HxR
  icases Hx3 with ⟨Hsrc, Hrest⟩
  ihave Hk := (Entails.of_eq (k_view c _)) $$ Hk
  ihave HxL := (Entails.of_eq (x_view c _ _)) $$ HxL
  ihave Hout := (Entails.of_eq (o_view c _)) $$ Hout
  have hmw := mayWait_bar (F := F) c
  sl_exec
  -- the copy into the next device's halo buffer
  iapply (wp_send_line m ρ K c _ (dev2_eq c hc2) h1 HatB_pay1_v (insert (SemLoc.reg barS, ()) W)) $$ [Hsrc HatB_pay1 HO HtS HtVN]
  · isplitr; · iexact HIsnd
    isplitr; · iexact HIrcvN
    isplitl [Hsrc]; · unfold srcPts; iexact Hsrc
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the rest is run symbolically: the reads, the store of rows 3 … 511, the wait on the receive cell (the halo comes back
  -- holding the last rows of the device before), the read of the halo, the store of rows 0 … 2, the wait on the send cell
  -- (the source rows come back)
  sl_exec
  sl_unfold_words
  simp only [View.writes_cons, View.writes_nil]
  rw [read_k, read_x, read_h]
  ihave Hk := (Entails.of_eq (k_view c _).symm) $$ Hk
  ihave HxL := (Entails.of_eq (x_view c _ _).symm) $$ HxL
  ihave Hout := (Entails.of_eq (o_view c _).symm) $$ Hout
  ihave HxR := (x_rows c (xstg m ρ c)).2 $$ [HatS_pay1 Hrest]
  · isplitl [HatS_pay1] <;> iassumption
  ihave Hx := (x_halves c (xstg m ρ c)).2 $$ [HxL HxR]
  · isplitl [HxL] <;> iassumption
  -- the two own cells close: their counters at zero are the device's again
  imod (Rounds.cell_close ER (lineRd m ρ) (Set.mem_univ (K (c, 1))) (fun h => h) (R := 0 + 1) (duties_later m ρ (sendCell c))) $$ [HatS] with HzS
  · isplitr; · iexact HIsnd
    iexact HatS
  imod (Rounds.cell_close ER (lineRd m ρ) (Set.mem_univ (K (c, 2))) (fun h => h) (R := 0 + 1) (duties_later m ρ (recvCell c))) $$ [HatV] with HzV
  · isplitr; · iexact HIrcv
    iexact HatV
  have hh : haloAt m ρ c = landed m ρ c := by unfold haloAt haloOf landed; rw [if_neg (by omega)]
  have e1 : k0_pay6 (k0_pay4 (kstg m ρ c) (xstg m ρ c)) (k0_pay5 (kstg m ρ c) (xstg m ρ c)) = tailOut (xstg m ρ c) (kstg m ρ c) := rfl
  have e2 : k0_pay1 (k0_pay8 (k0_pay2 (kstg m ρ c)) (k0_pay3 (xstg m ρ c)) (landed m ρ c)) = headOut (xstg m ρ c) (kstg m ρ c) (landed m ρ c) := rfl
  rw [e1, e2, wp_ret]; imodintro
  iapply Hcont
  unfold bodyPost Φ₁ Dat.owesAt Pipeline.owesWithin
  rw [show (dats m ρ 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  iexists _; isplitr
  pick_goal 2
  · iexact Hout
  · ipureintro
    unfold outAt; rw [hh]
    exact hst g2 (xstg m ρ c) (kstg m ρ c) (landed m ρ c)

set_option maxHeartbeats 400000 in
/-- The first device: nobody is before it; it fills its halo with zeros itself. -/
theorem sound_body_first (hst : ∀ (f0 : (cc0_stg2_0 : Ref sig .tc).ty.Contents (Elt F)) (xv : Vec F S4x512x256 .f32) (kv : Vec F S4x256 .f32) (hv : Vec F S4x3x256 .f32),
      ((oM.access R2 : View sig .tc _ _ _).write (Elt F) ((oM.access R1 : View sig .tc _ _ _).write (Elt F) f0 (updateSlice (oM.view.readAt (Elt F) R1.toLoadRect f0) (tailOut xv kv) ![0, 1, 0] slices_S4x510x256_S4x509x256_0_1_0) Finset.univ)
        (updateSlice (oM.view.readAt (Elt F) R2.toLoadRect ((oM.access R1 : View sig .tc _ _ _).write (Elt F) f0 (updateSlice (oM.view.readAt (Elt F) R1.toLoadRect f0) (tailOut xv kv) ![0, 1, 0] slices_S4x510x256_S4x509x256_0_1_0) Finset.univ)) (headOut xv kv hv) ![0, 0, 0] slices_S4x4x256_S4x3x256_0_0_0) Finset.univ) = outSpec xv kv hv)
    (c : Dev nD) (h0 : c.val = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have h1 : c.val < 31 := by omega
  have hc1 : ¬ k0_cond1 c = 1#1 := fun h => by have := (cond1_iff c).mp h; omega
  have hc2 : k0_cond2 c = 1#1 := (cond2_iff c).mpr h1
  have hc3 : Scalar.cmpi .ne (Scalar.extui (Scalar.cmpi .eq (pos c) 0#32)) 0#32 = 1#1 := (isFirst_iff c).mpr h0
  have hc4 : ¬ (Scalar.cmpi .ne (Scalar.extui (Scalar.cmpi .sgt (pos c) 0#32)) 0#32 = 1#1) := fun h => by have := (notFirst_iff c).mp h; omega
  have hc5 : Scalar.cmpi .ne (Scalar.extui (Scalar.cmpi .slt (pos c) 31#32)) 0#32 = 1#1 := (notLast_iff c).mpr h1
  have hbc : barCr c = 1 := if_pos h1
  have hrc : recvCr c = 0 := if_neg (by omega)
  simp only [cc0_body_eq_skeleton]; unfold cc0_body_skel
  simp only [k0_part1_eq_skeleton, k0_part2_eq_skeleton]; unfold k0_part1_skel k0_part2_skel
  simp only [semSignalWord, semWaitWord, storeSubelements, Prog.lift, Prog.bind_op, Prog.bind_ret, Prog.pure_eq_ret, wp_deviceId]
  simp only [dif_neg hc1, dif_pos hc2, dif_pos hc3, dif_neg hc4, dif_pos hc5, Prog.bind_op, Prog.bind_ret, Prog.pure_eq_ret]
  unfold bodyPre ghost Proto.invs
  rw [hbc, hrc]
  iintro ⟨⟨⟨⟨⟨#HIbar, #HIsnd, #HIrcv, #HIbarP, #HIrcvN⟩, HatB, HatS, HatV, #HrBP, #HrVN, #HrS, #HrV, HtBP, HtVN, HtS⟩, HcB, HcV, #Hlev, ⟨%f0, Hscr⟩⟩,
    Ho, ⟨%d0, %g0, %hg0, Hx⟩, ⟨%d1, %g1, %hg1, Hk⟩, ⟨%d2, %g2, %hg2, Hout⟩⟩, Hcont⟩
  have hx : g0 = xstg m ρ c := by rw [hg0]; unfold Dat.before; rw [if_pos (fetch0_0 t₀)]; rfl
  subst hx
  have hk : g1 = kstg m ρ c := by rw [hg1]; unfold Dat.before; rw [if_pos (fetch0_1 t₀)]; rfl
  subst hk
  unfold Dat.owesAt Pipeline.owesWithin
  icases Ho with ⟨%W, %hW, HO⟩
  rw [show (dats m ρ 0 c).owed t₀.castSucc = O₀ c from rfl]
  -- the wait on its own barrier cell, owing the next device's receive credit, is run symbolically: the next device's halo
  -- buffer comes with it. Before it the block's staging buffer is cut: one half share to read it, of the other half the last
  -- rows to the copy
  rw [show O₀ c = tallyAt (recvCell (nxt c)) () N from by unfold O₀ Osend Osig; rw [if_pos h1, if_neg (by omega), add_zero]]
  unfold scrPts
  ihave Hx2 := (x_halves c (xstg m ρ c)).1 $$ Hx
  icases Hx2 with ⟨HxL, HxR⟩
  ihave Hx3 := (x_rows c (xstg m ρ c)).1 $$ HxR
  icases Hx3 with ⟨Hsrc, Hrest⟩
  ihave Hk := (Entails.of_eq (k_view c _)) $$ Hk
  ihave HxL := (Entails.of_eq (x_view c _ _)) $$ HxL
  ihave Hout := (Entails.of_eq (o_view c _)) $$ Hout
  have hmw := mayWait_bar (F := F) c
  sl_exec
  -- the copy into the next device's halo buffer
  iapply (wp_send_line m ρ K c _ (dev2_eq c hc2) h1 HatB_pay1_v (insert (SemLoc.reg barS, ()) W)) $$ [Hsrc HatB_pay1 HO HtS HtVN]
  · isplitr; · iexact HIsnd
    isplitr; · iexact HIrcvN
    isplitl [Hsrc]; · unfold srcPts; iexact Hsrc
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the rest is run symbolically: the reads, the store of rows 3 … 511, the fill of the halo with zeros and its read-back,
  -- the store of rows 0 … 2, the wait on the send cell
  -- (the source rows come back)
  sl_exec
  sl_unfold_words
  simp only [View.writes_cons, View.writes_nil]
  rw [read_k, read_x, View.readCov_unit_zero (S := S4x3x256) _ hz3]
  ihave Hk := (Entails.of_eq (k_view c _).symm) $$ Hk
  ihave HxL := (Entails.of_eq (x_view c _ _).symm) $$ HxL
  ihave Hout := (Entails.of_eq (o_view c _).symm) $$ Hout
  ihave HxR := (x_rows c (xstg m ρ c)).2 $$ [HatS_pay1 Hrest]
  · isplitl [HatS_pay1] <;> iassumption
  ihave Hx := (x_halves c (xstg m ρ c)).2 $$ [HxL HxR]
  · isplitl [HxL] <;> iassumption
  -- the two own cells close: their counters at zero are the device's again
  imod (Rounds.cell_close ER (lineRd m ρ) (Set.mem_univ (K (c, 1))) (fun h => h) (R := 0 + 1) (duties_later m ρ (sendCell c))) $$ [HatS] with HzS
  · isplitr; · iexact HIsnd
    iexact HatS
  imod (Rounds.cell_close ER (lineRd m ρ) (Set.mem_univ (K (c, 2))) (fun h => h) (R := 0) (duties_recv_first m ρ c (by omega))) $$ [HatV] with HzV
  · isplitr; · iexact HIrcv
    iexact HatV
  have hh : haloAt m ρ c = zeroHalo (F := F) := by unfold haloAt haloOf; rw [if_pos h0]
  have e1 : k0_pay6 (k0_pay4 (kstg m ρ c) (xstg m ρ c)) (k0_pay5 (kstg m ρ c) (xstg m ρ c)) = tailOut (xstg m ρ c) (kstg m ρ c) := rfl
  have e2 : k0_pay1 (k0_pay8 (k0_pay2 (kstg m ρ c)) (k0_pay3 (xstg m ρ c)) (k0_pay7 (F := F))) = headOut (xstg m ρ c) (kstg m ρ c) (zeroHalo (F := F)) := rfl
  rw [e1, e2, wp_ret]; imodintro
  iapply Hcont
  unfold bodyPost Φ₁ Dat.owesAt Pipeline.owesWithin
  rw [show (dats m ρ 0 c).owed t₀.succ = 0 from rfl]
  isplitl [Hscr HzS HzV]
  · isplitl [Hscr]; · iexists _; unfold scrPts; iexact Hscr
    isplitl [HzS]; · iexact HzS
    iexact HzV
  isplitl [HO]
  · iexists (insert (SemLoc.dma sendS.sem, ()) (insert (SemLoc.reg barS, ()) W))
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  iexists _; isplitr
  pick_goal 2
  · iexact Hout
  · ipureintro
    unfold outAt; rw [hh]
    exact hst g2 (xstg m ρ c) (kstg m ρ c) (zeroHalo (F := F))

set_option maxHeartbeats 400000 in
/-- The last device: nobody is after it; it signals, computes and receives. -/
theorem sound_body_last (hst : ∀ (f0 : (cc0_stg2_0 : Ref sig .tc).ty.Contents (Elt F)) (xv : Vec F S4x512x256 .f32) (kv : Vec F S4x256 .f32) (hv : Vec F S4x3x256 .f32),
      ((oM.access R2 : View sig .tc _ _ _).write (Elt F) ((oM.access R1 : View sig .tc _ _ _).write (Elt F) f0 (updateSlice (oM.view.readAt (Elt F) R1.toLoadRect f0) (tailOut xv kv) ![0, 1, 0] slices_S4x510x256_S4x509x256_0_1_0) Finset.univ)
        (updateSlice (oM.view.readAt (Elt F) R2.toLoadRect ((oM.access R1 : View sig .tc _ _ _).write (Elt F) f0 (updateSlice (oM.view.readAt (Elt F) R1.toLoadRect f0) (tailOut xv kv) ![0, 1, 0] slices_S4x510x256_S4x509x256_0_1_0) Finset.univ)) (headOut xv kv hv) ![0, 0, 0] slices_S4x4x256_S4x3x256_0_0_0) Finset.univ) = outSpec xv kv hv)
    (c : Dev nD) (h0 : 0 < c.val) (h1 : ¬ c.val < 31) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr h0
  have hc2 : ¬ k0_cond2 c = 1#1 := fun h => h1 ((cond2_iff c).mp h)
  have hc3 : ¬ (Scalar.cmpi .ne (Scalar.extui (Scalar.cmpi .eq (pos c) 0#32)) 0#32 = 1#1) := fun h => by have := (isFirst_iff c).mp h; omega
  have hc4 : Scalar.cmpi .ne (Scalar.extui (Scalar.cmpi .sgt (pos c) 0#32)) 0#32 = 1#1 := (notFirst_iff c).mpr h0
  have hc5 : ¬ (Scalar.cmpi .ne (Scalar.extui (Scalar.cmpi .slt (pos c) 31#32)) 0#32 = 1#1) := fun h => h1 ((notLast_iff c).mp h)
  have hprv : (prv c).val < 31 := by have hlt : c.val < 32 := c.isLt; show (c.val + 31) % 32 < 31; omega
  have hbc : barCr c = 0 := if_neg h1
  have hrc : recvCr c = N := if_pos h0
  simp only [cc0_body_eq_skeleton]; unfold cc0_body_skel
  simp only [k0_part1_eq_skeleton, k0_part2_eq_skeleton]; unfold k0_part1_skel k0_part2_skel
  simp only [semSignalWord, semWaitWord, storeSubelements, Prog.lift, Prog.bind_op, Prog.bind_ret, Prog.pure_eq_ret, wp_deviceId]
  simp only [dif_pos hc1, dif_neg hc2, dif_neg hc3, dif_pos hc4, dif_neg hc5, Prog.bind_op, Prog.bind_ret, Prog.pure_eq_ret]
  unfold bodyPre ghost Proto.invs
  rw [hbc, hrc]
  iintro ⟨⟨⟨⟨⟨#HIbar, #HIsnd, #HIrcv, #HIbarP, #HIrcvN⟩, HatB, HatS, HatV, #HrBP, #HrVN, #HrS, #HrV, HtBP, HtVN, HtS⟩, HcB, HcV, #Hlev, ⟨%f0, Hscr⟩⟩,
    Ho, ⟨%d0, %g0, %hg0, Hx⟩, ⟨%d1, %g1, %hg1, Hk⟩, ⟨%d2, %g2, %hg2, Hout⟩⟩, Hcont⟩
  have hx : g0 = xstg m ρ c := by rw [hg0]; unfold Dat.before; rw [if_pos (fetch0_0 t₀)]; rfl
  subst hx
  have hk : g1 = kstg m ρ c := by rw [hg1]; unfold Dat.before; rw [if_pos (fetch0_1 t₀)]; rfl
  subst hk
  unfold Dat.owesAt Pipeline.owesWithin
  icases Ho with ⟨%W, %hW, HO⟩
  rw [show (dats m ρ 0 c).owed t₀.castSucc = O₀ c from rfl]
  -- the whole body is run symbolically: the signal to the device before (its barrier duty, paid with this device's halo
  -- buffer), the reads, the store of rows 3 … 511, the wait on the receive cell (the halo comes back holding the last rows
  -- of the device before), the read of the halo and the store of rows 0 … 2
  rw [show O₀ c = tallyAt (barCell (prv c)) () 1 from by unfold O₀ Osend Osig; rw [if_neg h1, if_pos h0, zero_add]]
  simp only [dev1_eq c hc1]
  ihave Hk := (Entails.of_eq (k_view c _)) $$ Hk
  ihave Hx := (Entails.of_eq (x_view c _ _)) $$ Hx
  ihave Hout := (Entails.of_eq (o_view c _)) $$ Hout
  ihave Hscr := (show (scrPts c f0 : sProp 𝕄) ⊢ iprop(∃ f, (rM : Memref sig .tc .vmem S4x3x256 .f32).view.loc (c : Thread nD τ) ↦[(rM : Memref sig .tc .vmem S4x3x256 .f32).view.set]{fullShare} f) from by unfold scrPts; iintro H; iexists f0; iexact H) $$ Hscr
  sl_exec
  sl_unfold_words
  simp only [View.writes_cons, View.writes_nil]
  rw [read_k, read_x, read_h]
  ihave Hk := (Entails.of_eq (k_view c _).symm) $$ Hk
  ihave Hx := (Entails.of_eq (x_view c _ _).symm) $$ Hx
  ihave Hout := (Entails.of_eq (o_view c _).symm) $$ Hout
  -- the two own cells close: their counters at zero are the device's again
  imod (Rounds.cell_close ER (lineRd m ρ) (Set.mem_univ (K (c, 1))) (fun h => h) (R := 0) (duties_send_last m ρ c h1)) $$ [HatS] with HzS
  · isplitr; · iexact HIsnd
    iexact HatS
  imod (Rounds.cell_close ER (lineRd m ρ) (Set.mem_univ (K (c, 2))) (fun h => h) (R := 0 + 1) (duties_later m ρ (recvCell c))) $$ [HatV] with HzV
  · isplitr; · iexact HIrcv
    iexact HatV
  have hh : haloAt m ρ c = landed m ρ c := by unfold haloAt haloOf landed; rw [if_neg (by omega)]
  have e1 : k0_pay6 (k0_pay4 (kstg m ρ c) (xstg m ρ c)) (k0_pay5 (kstg m ρ c) (xstg m ρ c)) = tailOut (xstg m ρ c) (kstg m ρ c) := rfl
  have e2 : k0_pay1 (k0_pay8 (k0_pay2 (kstg m ρ c)) (k0_pay3 (xstg m ρ c)) (landed m ρ c)) = headOut (xstg m ρ c) (kstg m ρ c) (landed m ρ c) := rfl
  rw [e1, e2, wp_ret]; imodintro
  iapply Hcont
  unfold bodyPost Φ₁ Dat.owesAt Pipeline.owesWithin
  rw [show (dats m ρ 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma recvS.sem, ()) W)
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  iexists _; isplitr
  pick_goal 2
  · iexact Hout
  · ipureintro
    unfold outAt; rw [hh]
    exact hst g2 (xstg m ρ c) (kstg m ρ c) (landed m ρ c)

/-- The body on any device, by its place in the line. -/
theorem sound_body (hst : ∀ (f0 : (cc0_stg2_0 : Ref sig .tc).ty.Contents (Elt F)) (xv : Vec F S4x512x256 .f32) (kv : Vec F S4x256 .f32) (hv : Vec F S4x3x256 .f32),
      ((oM.access R2 : View sig .tc _ _ _).write (Elt F) ((oM.access R1 : View sig .tc _ _ _).write (Elt F) f0 (updateSlice (oM.view.readAt (Elt F) R1.toLoadRect f0) (tailOut xv kv) ![0, 1, 0] slices_S4x510x256_S4x509x256_0_1_0) Finset.univ)
        (updateSlice (oM.view.readAt (Elt F) R2.toLoadRect ((oM.access R1 : View sig .tc _ _ _).write (Elt F) f0 (updateSlice (oM.view.readAt (Elt F) R1.toLoadRect f0) (tailOut xv kv) ![0, 1, 0] slices_S4x510x256_S4x509x256_0_1_0) Finset.univ)) (headOut xv kv hv) ![0, 0, 0] slices_S4x4x256_S4x3x256_0_0_0) Finset.univ) = outSpec xv kv hv)
    (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  by_cases h0 : 0 < c.val
  · by_cases h1 : c.val < 31
    · exact sound_body_mid m ρ K hst c h0 h1 Kt
    · exact sound_body_last m ρ K hst c h0 h1 Kt
  · exact sound_body_first m ρ K hst c (by omega) Kt

omit K in
set_option maxRecDepth 4000 in
/-- The library's body obligation on device c. -/
theorem body_obligation (hst : ∀ (f0 : (cc0_stg2_0 : Ref sig .tc).ty.Contents (Elt F)) (xv : Vec F S4x512x256 .f32) (kv : Vec F S4x256 .f32) (hv : Vec F S4x3x256 .f32),
      ((oM.access R2 : View sig .tc _ _ _).write (Elt F) ((oM.access R1 : View sig .tc _ _ _).write (Elt F) f0 (updateSlice (oM.view.readAt (Elt F) R1.toLoadRect f0) (tailOut xv kv) ![0, 1, 0] slices_S4x510x256_S4x509x256_0_1_0) Finset.univ)
        (updateSlice (oM.view.readAt (Elt F) R2.toLoadRect ((oM.access R1 : View sig .tc _ _ _).write (Elt F) f0 (updateSlice (oM.view.readAt (Elt F) R1.toLoadRect f0) (tailOut xv kv) ![0, 1, 0] slices_S4x510x256_S4x509x256_0_1_0) Finset.univ)) (headOut xv kv hv) ![0, 0, 0] slices_S4x4x256_S4x3x256_0_0_0) Finset.univ) = outSpec xv kv hv)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K', Hg⟩, Hrest⟩, Hscr⟩, Ho, Hx, Hk, Hout⟩
  iapply (sound_body m ρ K' hst c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hk] <;> iassumption
  · iintro H; iexact H

/-- info: 'Cert.KernelIdeal.Body.body_obligation' depends on axioms: [propext, Classical.choice, Quot.sound] -/
#guard_msgs in #print axioms body_obligation

end Cert.KernelIdeal.Body

end
-- ==== Proof.Launch.lean ====
/-
  The launch of the halo exchange on the line of 32 devices.

  From a memory with every semaphore at zero, the ghost state of the three cells of every device is
  allocated under one update: every cell's round state, position and reached-mark at round 0, and one duty
  token for round 0 of every cell. The tokens are then dealt around the ring: the token of a barrier cell to
  the device after it (which pays that cell), the token of a receive cell to the device before it (whose copy
  pays it), the token of a send cell stays (the device's own copy pays it). The credit a device receives at
  launch is the sum of what the others owe its cells: one unit on its barrier cell unless it is the last
  device, the halo's credit on its receive cell unless it is the first. With each device's body proved from
  that state, every fair run terminates and leaves the three arrays of every device at the contents the
  proof data names: the two inputs as they were, the output at the device's result block.
-/
import proofs.«900794_g7700000000000795_dist_gconv1d_seqshard_i_b4_s512_c256_v7x_i32_bf16_1_alg».proof.Proof.Proto

noncomputable section

namespace Cert.KernelIdeal.Launch

open Cert.KernelIdeal Cert.KernelIdeal.Gen Cert.KernelIdeal.Spec Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens allocated at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def lineCells : Finset (GSem nD τ sig) := Finset.univ.map ⟨kcell, kcell_injective⟩

/-- One duty token a cell: round 0 of every one of the three cells of every device. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (lineRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (lineRd m ρ) (kcell (c, k)) 0)
      ⊢ (|={Set.univ}=> bigSep Finset.univ fun k => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (lineRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (lineRd m ρ) (K ck) (kcell ck) : sProp 𝕄)) ⊢ cellInv ER (lineRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost Proto.invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (prv c, 0)); iexact HI
    iapply (inv_at m ρ K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt around the ring: a barrier cell's token one device up (to the device after it), a
    receive cell's token one device down (to the device before it); a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (lineRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (lineRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- The device after c is not the first exactly when c is not the last; the device before c is not the last
    exactly when c is not the first. -/
theorem nxt_val_pos : ∀ c : Dev nD, (0 < (nxt c).val ↔ c.val < 31) := by decide
theorem prv_val_lt : ∀ c : Dev nD, ((prv c).val < 31 ↔ 0 < c.val) := by decide

theorem Osend_bar (d c : Dev nD) : Osend d (barCell c) () = 0 := by
  unfold Osend
  by_cases hd : d.val < 31
  · rw [if_pos hd, tallyAt_ne_cell (fun h => recv_ne_bar (congrArg Prod.snd h).symm)]; rfl
  · rw [if_neg hd]; rfl
theorem Osig_recv (d c : Dev nD) : Osig d (recvCell c) () = 0 := by
  unfold Osig
  by_cases hd : 0 < d.val
  · rw [if_pos hd, tallyAt_ne_cell (fun h => recv_ne_bar (congrArg Prod.snd h))]; rfl
  · rw [if_neg hd]; rfl

/-- What device d's signal owes device c's barrier cell: a unit if d is the device after c and c is not the last. -/
theorem Osig_bar (d c : Dev nD) : Osig d (barCell c) () = if d = nxt c ∧ c.val < 31 then 1 else 0 := by
  unfold Osig
  by_cases hd : d = nxt c
  · subst hd
    rw [prv_nxt]
    by_cases hc : c.val < 31
    · rw [if_pos ((nxt_val_pos c).mpr hc), if_pos ⟨rfl, hc⟩, tallyAt_apply, if_pos ⟨rfl, rfl⟩]
    · rw [if_neg (fun h => hc ((nxt_val_pos c).mp h)), if_neg (fun h => hc h.2)]; rfl
  · rw [if_neg (fun h : d = nxt c ∧ c.val < 31 => hd h.1)]
    by_cases h0 : 0 < d.val
    · rw [if_pos h0, tallyAt_apply,
        if_neg (fun h : barCell c = barCell (prv d) ∧ () = () => hd (by rw [← nxt_prv d]; exact congrArg nxt (bar_eq_iff.mp h.1).symm))]
    · rw [if_neg h0]; rfl

/-- What device d's copy owes device c's receive cell: the halo's credit if d is the device before c and c is not the first. -/
theorem Osend_recv (d c : Dev nD) : Osend d (recvCell c) () = if d = prv c ∧ 0 < c.val then N else 0 := by
  unfold Osend
  by_cases hd : d = prv c
  · subst hd
    rw [nxt_prv]
    by_cases hc : 0 < c.val
    · rw [if_pos ((prv_val_lt c).mpr hc), if_pos ⟨rfl, hc⟩, tallyAt_apply, if_pos ⟨rfl, rfl⟩]
    · rw [if_neg (fun h => hc ((prv_val_lt c).mp h)), if_neg (fun h => hc h.2)]; rfl
  · rw [if_neg (fun h : d = prv c ∧ 0 < c.val => hd h.1)]
    by_cases h0 : d.val < 31
    · rw [if_pos h0, tallyAt_apply,
        if_neg (fun h : recvCell c = recvCell (nxt d) ∧ () = () => hd (by rw [← prv_nxt d]; exact congrArg prv (recv_eq_iff.mp h.1).symm))]
    · rw [if_neg h0]; rfl

theorem owed_bar (d c : Dev nD) : O₀ d (barCell c) () = if d = nxt c ∧ c.val < 31 then 1 else 0 := by
  unfold O₀
  rw [Pi.add_apply, Finsupp.add_apply, Osend_bar, Osig_bar, Nat.zero_add]
theorem owed_recv (d c : Dev nD) : O₀ d (recvCell c) () = if d = prv c ∧ 0 < c.val then N else 0 := by
  unfold O₀
  rw [Pi.add_apply, Finsupp.add_apply, Osend_recv, Osig_recv, Nat.add_zero]

theorem launch_bar (c : Dev nD) :
    tallyOn (barCell c) (launchCredit (Pipeline.owing O₀) 0 (barCell c)) = (tallyAt (barCell c) () (barCr c) : CellTallies nD τ sig Unit) := by
  unfold tallyAt; refine congrArg _ (Finsupp.ext fun u => ?_); cases u
  rw [Pipeline.launchCredit_owing, Finsupp.single_eq_same, Finset.sum_congr rfl fun d _ => owed_bar d c]
  unfold barCr
  by_cases hc : c.val < 31
  · rw [if_pos hc, Finset.sum_congr rfl fun d _ => if_congr (and_iff_left hc) rfl rfl,
      Finset.sum_ite_eq' Finset.univ (nxt c) fun _ => 1, if_pos (Finset.mem_univ _)]
  · rw [if_neg hc]; exact Finset.sum_eq_zero fun d _ => if_neg fun h => hc h.2

theorem launch_recv (c : Dev nD) :
    tallyOn (recvCell c) (launchCredit (Pipeline.owing O₀) 0 (recvCell c)) = (tallyAt (recvCell c) () (recvCr c) : CellTallies nD τ sig Unit) := by
  unfold tallyAt; refine congrArg _ (Finsupp.ext fun u => ?_); cases u
  rw [Pipeline.launchCredit_owing, Finsupp.single_eq_same, Finset.sum_congr rfl fun d _ => owed_recv d c]
  unfold recvCr
  by_cases hc : 0 < c.val
  · rw [if_pos hc, Finset.sum_congr rfl fun d _ => if_congr (and_iff_left hc) rfl rfl,
      Finset.sum_ite_eq' Finset.univ (prv c) fun _ => N, if_pos (Finset.mem_univ _)]
  · rw [if_neg hc]; exact Finset.sum_eq_zero fun d _ => if_neg fun h => hc h.2

theorem creds (c : Dev nD) :
    (Pipeline.launchCred O₀ c : sProp 𝕄) ⊢ iprop(cred (tallyAt (barCell c) () (barCr c)) ∗ cred (tallyAt (recvCell c) () (recvCr c))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The three arrays of device c after the run, as the proof data names them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the line of 32 devices, for any float values, from any memory with every semaphore at zero, and given
    each device's body proved from its launch state: every weakly fair execution terminates, nothing faults,
    and every final state has each device's three arrays at the contents the proof data names. -/
theorem run_main (hbody : ∀ c : Dev nD, Pipeline.BodyObligationLoose (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

/-! ## The final arrays, in closed form -/

/-- The block's array is an input: after the run it holds what it held. -/
theorem finalA_x (c : Dev nD) : finalA m ρ c (0 : Fin 3) = m ((c : Thread nD τ).loc main_arg0) :=
  (dats (F := F) m ρ 0 c).arrAt_in (0 : Fin 3) rfl _
/-- So is the taps' array. -/
theorem finalA_k (c : Dev nD) : finalA m ρ c (1 : Fin 3) = m ((c : Thread nD τ).loc main_arg1) :=
  (dats (F := F) m ρ 0 c).arrAt_in (1 : Fin 3) rfl _

/-- The result array is written back once, whole, at the one point: it holds what the body left. -/
theorem finalA_out (c : Dev nD) : finalA m ρ c (2 : Fin 3) = outAt m ρ c := by
  refine ((dats m ρ 0 c).arrAt_succ (2 : Fin 3) (0 : Fin 1)).trans ?_
  rw [show (cfg0.win (2 : Fin 3)).flush (0 : Fin 1) = true from flush0_2 _, if_pos rfl]
  have hz : (fun a => (win0_2.index (0 : Fin 1)) a * main_v1.ty.shape.size a) = fun _ => 0 :=
    funext fun a => by fin_cases a <;> decide
  exact Memref.write_access_unit_zero_univ (Elt F) main_v1 hz (fun a => by fin_cases a <;> decide) _ _

/-- The windows of the block and of the taps are the whole arrays: what is fetched is the array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem kstg_eq (c : Dev nD) : kstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The run with the final arrays read: every device's result array ends at the result block computed from
    its own block, the taps and the last three rows of the block before it (zeros on the first device), and
    its two argument arrays end as they were. -/
theorem run (hbody : ∀ c : Dev nD, Pipeline.BodyObligationLoose (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1)
          = Spec.outSpec (m ((c.tc : Thread nD τ).loc main_arg0)) (m ((c.tc : Thread nD τ).loc main_arg1))
              (Spec.haloOf (fun d : Dev nD => m ((d.tc : Thread nD τ).loc main_arg0)) c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, (h c (0 : Fin 3)).trans (finalA_x m ρ c), (h c (1 : Fin 3)).trans (finalA_k m ρ c)⟩) (run_main m ρ hbody)
  have ho := (h c (2 : Fin 3)).trans (finalA_out m ρ c)
  unfold outAt haloAt at ho
  simp only [xstg_eq, kstg_eq] at ho
  exact ho

/-- info: 'Cert.KernelIdeal.Launch.run' depends on axioms: [propext, Classical.choice, Quot.sound] -/
#guard_msgs in #print axioms run

end Cert.KernelIdeal.Launch

end
-- ==== Proof.RefSide.lean ====
/-
  The reference side: the host program's result as a function of its two argument arrays, its run,
  and each block of the result as the per-device formula of the blocks of the arguments.
-/
import proofs.«900794_g7700000000000795_dist_gconv1d_seqshard_i_b4_s512_c256_v7x_i32_bf16_1_alg».proof.Defs
import proofs.«900794_g7700000000000795_dist_gconv1d_seqshard_i_b4_s512_c256_v7x_i32_bf16_1_alg».proof.Proof.Gen.ReferenceIdeal
import proofs.«900794_g7700000000000795_dist_gconv1d_seqshard_i_b4_s512_c256_v7x_i32_bf16_1_alg».proof.Proof.Gen.ReferenceIdeal.Run
import proofs.«900794_g7700000000000795_dist_gconv1d_seqshard_i_b4_s512_c256_v7x_i32_bf16_1_alg».proof.Proof.Gen.ReferenceIdeal.Read
import proofs.«900794_g7700000000000795_dist_gconv1d_seqshard_i_b4_s512_c256_v7x_i32_bf16_1_alg».proof.Proof.Gen.Pre_finite_inputs_ReferenceIdeal
import proofs.«900794_g7700000000000795_dist_gconv1d_seqshard_i_b4_s512_c256_v7x_i32_bf16_1_alg».proof.Proof.Spec
import Idealize.ShloMosaic.Lib.Pipeline.Value
import Idealize.ShloMosaic.Lib.ValueIdx
import Idealize.ShloMosaic.Lib.IdealHost
import Idealize.ShloMosaic.Lib.Layout
import Idealize.ShloMosaic.PureOps.Ideal
import Idealize.ShloMosaic.PureOps.Ideal.Laws

noncomputable section

namespace Cert.ReferenceIdeal.RefSide

open Idealize.ShloMosaic Idealize.ShloMosaic.ValueIdx Idealize.SL.Sem Cert.ReferenceIdeal Cert.ReferenceIdeal.Gen

/-- The reference's result as a function of the sequence and the taps. -/
def refVal (X : (⟨3, ![4, 16384, 256]⟩ : Shape).Idx → EReal) (K : (⟨2, ![4, 256]⟩ : Shape).Idx → EReal) :
    (⟨3, ![4, 16384, 256]⟩ : Shape).Idx → EReal :=
  Read.val_main_v36 (F := Ideal) X K

/-- Row R of the sequence with three rows of zeros in front (zero past the end as well). -/
def gpad (X : (⟨3, ![4, 16384, 256]⟩ : Shape).Idx → EReal) (b : Fin 4) (R : ℕ) (ch : Fin 256) : EReal :=
  if h : R < 3 then 0
  else if h' : R - 3 < 16384 then X (ix3 b (⟨R - 3, h'⟩ : Fin 16384) ch) else 0

/-- The padded sequence read at an index: zero in the first three rows, the sequence three rows back after. -/
theorem v1_apply (X : (⟨3, ![4, 16384, 256]⟩ : Shape).Idx → EReal) (b : Fin 4) (R : Fin 16387) (ch : Fin 256) :
    Read.val_main_v1 (F := Ideal) X (ix3 b R ch) = gpad X b R.val ch := by
  unfold Read.val_main_v1 gpad
  by_cases h : R.val < 3
  · rw [dif_pos h]
    refine (concatenate_pair_apply_left (t := S4x16387x256) (s₁ := S4x3x256) (s₂ := S4x16384x256) 1 _ _ _
      (ix3 b R ch) rfl (ix3 b (⟨R.val, h⟩ : Fin 3) ch) (fun a => by
      match a with
      | ⟨0, _⟩ => rfl
      | ⟨1, _⟩ => rfl
      | ⟨2, _⟩ => rfl)).trans ?_
    rw [Read.val_main_v0_apply, Read.val_main_cst_apply]
    exact Ideal.ofBits_zero_f32
  · rw [dif_neg h]
    have h' : R.val - 3 < 16384 := by have := R.isLt; omega
    rw [dif_pos h']
    exact concatenate_pair_apply_right (t := S4x16387x256) (s₁ := S4x3x256) (s₂ := S4x16384x256) 1 _ _ _
      (ix3 b R ch) rfl rfl (ix3 b (⟨R.val - 3, h'⟩ : Fin 16384) ch)
      (fun a ha => by
        match a with
        | ⟨0, _⟩ => rfl
        | ⟨1, _⟩ => exact absurd rfl ha
        | ⟨2, _⟩ => rfl)
      (by show R.val - 3 + 3 = R.val; omega)

/-! ## The four shifted windows of the padded sequence, and the four taps, at an index -/

theorem slice0_apply (X : (⟨3, ![4, 16384, 256]⟩ : Shape).Idx → EReal) (b : Fin 4) (R : Fin 16384) (ch : Fin 256) :
    Read.val_main_v3 (F := Ideal) X (ix3 b R ch) = gpad X b (R.val + 0) ch := by
  rw [Read.val_main_v3_apply]
  have e : Read.idx_main_v3 (ix3 b R ch) = ix3 b (⟨R.val + 0, by have := R.isLt; omega⟩ : Fin 16387) ch := by
    funext a
    match a with
    | ⟨0, _⟩ => rfl
    | ⟨1, _⟩ => exact Fin.ext (by show R.val = R.val + 0; omega)
    | ⟨2, _⟩ => rfl
  rw [e]
  exact v1_apply X b _ ch

theorem slice1_apply (X : (⟨3, ![4, 16384, 256]⟩ : Shape).Idx → EReal) (b : Fin 4) (R : Fin 16384) (ch : Fin 256) :
    Read.val_main_v10 (F := Ideal) X (ix3 b R ch) = gpad X b (R.val + 1) ch := by
  rw [Read.val_main_v10_apply]
  have e : Read.idx_main_v10 (ix3 b R ch) = ix3 b (⟨R.val + 1, by have := R.isLt; omega⟩ : Fin 16387) ch := by
    funext a
    match a with
    | ⟨0, _⟩ => rfl
    | ⟨1, _⟩ => exact Fin.ext (by show 1 + R.val = R.val + 1; omega)
    | ⟨2, _⟩ => rfl
  rw [e]
  exact v1_apply X b _ ch

theorem slice2_apply (X : (⟨3, ![4, 16384, 256]⟩ : Shape).Idx → EReal) (b : Fin 4) (R : Fin 16384) (ch : Fin 256) :
    Read.val_main_v17 (F := Ideal) X (ix3 b R ch) = gpad X b (R.val + 2) ch := by
  rw [Read.val_main_v17_apply]
  have e : Read.idx_main_v17 (ix3 b R ch) = ix3 b (⟨R.val + 2, by have := R.isLt; omega⟩ : Fin 16387) ch := by
    funext a
    match a with
    | ⟨0, _⟩ => rfl
    | ⟨1, _⟩ => exact Fin.ext (by show 2 + R.val = R.val + 2; omega)
    | ⟨2, _⟩ => rfl
  rw [e]
  exact v1_apply X b _ ch

theorem slice3_apply (X : (⟨3, ![4, 16384, 256]⟩ : Shape).Idx → EReal) (b : Fin 4) (R : Fin 16384) (ch : Fin 256) :
    Read.val_main_v24 (F := Ideal) X (ix3 b R ch) = gpad X b (R.val + 3) ch := by
  rw [Read.val_main_v24_apply]
  have e : Read.idx_main_v24 (ix3 b R ch) = ix3 b (⟨R.val + 3, by have := R.isLt; omega⟩ : Fin 16387) ch := by
    funext a
    match a with
    | ⟨0, _⟩ => rfl
    | ⟨1, _⟩ => exact Fin.ext (by show 3 + R.val = R.val + 3; omega)
    | ⟨2, _⟩ => rfl
  rw [e]
  exact v1_apply X b _ ch

theorem tap0_apply (K : (⟨2, ![4, 256]⟩ : Shape).Idx → EReal) (b : Fin 4) (R : Fin 16384) (ch : Fin 256) :
    Read.val_main_v7 (F := Ideal) K (ix3 b R ch) = K (ix2 (0 : Fin 4) ch) := by
  rw [Read.val_main_v7_apply, Read.val_main_v6_apply, Read.val_main_v5_apply, Read.val_main_v4_apply]
  refine congrArg K ?_
  funext a
  match a with
  | ⟨0, _⟩ => rfl
  | ⟨1, _⟩ => exact Fin.ext (Nat.mod_eq_of_lt ch.isLt)

theorem tap1_apply (K : (⟨2, ![4, 256]⟩ : Shape).Idx → EReal) (b : Fin 4) (R : Fin 16384) (ch : Fin 256) :
    Read.val_main_v14 (F := Ideal) K (ix3 b R ch) = K (ix2 (1 : Fin 4) ch) := by
  rw [Read.val_main_v14_apply, Read.val_main_v13_apply, Read.val_main_v12_apply, Read.val_main_v11_apply]
  refine congrArg K ?_
  funext a
  match a with
  | ⟨0, _⟩ => rfl
  | ⟨1, _⟩ => exact Fin.ext (Nat.mod_eq_of_lt ch.isLt)

theorem tap2_apply (K : (⟨2, ![4, 256]⟩ : Shape).Idx → EReal) (b : Fin 4) (R : Fin 16384) (ch : Fin 256) :
    Read.val_main_v21 (F := Ideal) K (ix3 b R ch) = K (ix2 (2 : Fin 4) ch) := by
  rw [Read.val_main_v21_apply, Read.val_main_v20_apply, Read.val_main_v19_apply, Read.val_main_v18_apply]
  refine congrArg K ?_
  funext a
  match a with
  | ⟨0, _⟩ => rfl
  | ⟨1, _⟩ => exact Fin.ext (Nat.mod_eq_of_lt ch.isLt)

theorem tap3_apply (K : (⟨2, ![4, 256]⟩ : Shape).Idx → EReal) (b : Fin 4) (R : Fin 16384) (ch : Fin 256) :
    Read.val_main_v28 (F := Ideal) K (ix3 b R ch) = K (ix2 (3 : Fin 4) ch) := by
  rw [Read.val_main_v28_apply, Read.val_main_v27_apply, Read.val_main_v26_apply, Read.val_main_v25_apply]
  refine congrArg K ?_
  funext a
  match a with
  | ⟨0, _⟩ => rfl
  | ⟨1, _⟩ => exact Fin.ext (Nat.mod_eq_of_lt ch.isLt)

/-- The sum over the four taps at row R of the padded sequence. -/
def gsum (X : (⟨3, ![4, 16384, 256]⟩ : Shape).Idx → EReal) (K : (⟨2, ![4, 256]⟩ : Shape).Idx → EReal)
    (b : Fin 4) (R : ℕ) (ch : Fin 256) : EReal :=
  gpad X b (R + 0) ch * K (ix2 (0 : Fin 4) ch) + gpad X b (R + 1) ch * K (ix2 (1 : Fin 4) ch)
    + gpad X b (R + 2) ch * K (ix2 (2 : Fin 4) ch) + gpad X b (R + 3) ch * K (ix2 (3 : Fin 4) ch)

/-- The reference's result at an index: the gated sum over the four taps. -/
theorem refVal_apply (X : (⟨3, ![4, 16384, 256]⟩ : Shape).Idx → EReal) (K : (⟨2, ![4, 256]⟩ : Shape).Idx → EReal)
    (b : Fin 4) (R : Fin 16384) (ch : Fin 256) :
    refVal X K (ix3 b R ch) = Cert.KernelIdeal.Spec.silu (gsum X K b R.val ch) := by
  unfold refVal
  rw [Read.val_main_v36_apply, Read.val_main_v35_apply, Read.val_main_v34_apply, Read.val_main_v33_apply,
    Read.val_main_cst_1_apply, Read.val_main_v32_apply, Read.val_main_v31_apply, Read.val_main_v30_apply,
    Read.val_main_v29_apply, Read.val_main_v23_apply, Read.val_main_v22_apply, Read.val_main_v16_apply,
    Read.val_main_v15_apply, Read.val_main_v9_apply, Read.val_main_v8_apply, Read.val_main_v2_apply,
    Read.val_main_cst_0_apply, slice0_apply, slice1_apply, slice2_apply, slice3_apply,
    tap0_apply, tap1_apply, tap2_apply, tap3_apply]
  simp only [Ideal.truncf_def, Ideal.hostDivf_def, Ideal.addf_def, Ideal.mulf_def, Ideal.hostUnary_exp_def,
    Ideal.hostNegf_def, Ideal.negf_def, Ideal.ofBits_def, Ideal.ofBits_one_f32, Ideal.ofBits_zero_f32, zero_add]
  rfl

/-! ## The run -/

/-- Every weakly fair execution of the reference terminates with its result at `refVal` of the two argument
    arrays as they were at the launch, and the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = refVal (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (Read.val_main_v36_eq m' 0), (h 0).2.1, (h 0).2.2⟩)
    (Cert.ReferenceIdeal.Value.run (F := Ideal) m' g')

/-- The reference runs and its argument arrays end unchanged. -/
theorem frame : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-! ## A block of the result -/

/-- The halo of the first device is zero everywhere. -/
theorem zeroHalo_apply (i : (⟨3, ![4, 3, 256]⟩ : Shape).Idx) :
    Cert.KernelIdeal.Spec.zeroHalo (F := Ideal) i = 0 := by
  unfold Cert.KernelIdeal.Spec.zeroHalo Cert.KernelIdeal.Gen.k0_pay7
  rw [shapeCast_self]
  exact Ideal.ofBits_zero_f32

/-- Where entry (b, r, ch) of block c sits in the whole sequence: at row 512 c + r. -/
theorem blk_idx (hT : Layout.Tiles ⟨3, ![4, 512, 256]⟩ ⟨3, ![4, 16384, 256]⟩ 1 32) (c : Fin 32)
    (b : Fin 4) (r : Fin 512) (ch : Fin 256) :
    hT.idx c (ix3 b r ch)
      = ix3 b (⟨c.val * 512 + r.val, by have := c.isLt; have := r.isLt; omega⟩ : Fin 16384) ch := by
  funext a
  match a with
  | ⟨0, _⟩ => exact Fin.ext rfl
  | ⟨1, _⟩ => exact Fin.ext rfl
  | ⟨2, _⟩ => exact Fin.ext rfl

/-- Row 512 c + r + t of the padded sequence is row r + t of device c's halo followed by its block. -/
theorem pad_eq (hT : Layout.Tiles ⟨3, ![4, 512, 256]⟩ ⟨3, ![4, 16384, 256]⟩ 1 32)
    (X : (⟨3, ![4, 16384, 256]⟩ : Shape).Idx → EReal) (c : Fin 32) (b : Fin 4) (r : Fin 512) (ch : Fin 256)
    (t : ℕ) (ht : t ≤ 3) :
    gpad X b (c.val * 512 + r.val + t) ch
      = Cert.KernelIdeal.Spec.padAt (Layout.block ⟨3, ![4, 512, 256]⟩ ⟨3, ![4, 16384, 256]⟩ 1 32 c X hT)
          (Cert.KernelIdeal.Spec.haloOf (F := Ideal)
            (fun d => Layout.block ⟨3, ![4, 512, 256]⟩ ⟨3, ![4, 16384, 256]⟩ 1 32 d X hT) c) b (r.val + t) ch := by
  have hc := c.isLt
  have hr := r.isLt
  unfold gpad Cert.KernelIdeal.Spec.padAt
  by_cases h : r.val + t < 3
  · rw [dif_pos h]
    unfold Cert.KernelIdeal.Spec.haloOf
    by_cases hc0 : c.val = 0
    · rw [if_pos hc0, zeroHalo_apply, dif_pos (show c.val * 512 + r.val + t < 3 by omega)]
    · have h3 : ¬ c.val * 512 + r.val + t < 3 := by omega
      have h4 : c.val * 512 + r.val + t - 3 < 16384 := by omega
      rw [if_neg hc0, dif_neg h3, dif_pos h4]
      unfold Cert.KernelIdeal.Spec.lastRows
      have hb : 509 + (r.val + t) < 512 := by omega
      show X _ = X (hT.idx (Cert.KernelIdeal.Spec.prvD c) (ix3 b (⟨509 + (r.val + t), hb⟩ : Fin 512) ch))
      rw [blk_idx]
      refine congrArg X ?_
      funext a
      match a with
      | ⟨0, _⟩ => rfl
      | ⟨1, _⟩ =>
        exact Fin.ext (by
          show c.val * 512 + r.val + t - 3 = (c.val + 31) % 32 * 512 + (509 + (r.val + t))
          omega)
      | ⟨2, _⟩ => rfl
  · have h2 : r.val + t - 3 < 512 := by omega
    have h3 : ¬ c.val * 512 + r.val + t < 3 := by omega
    have h4 : c.val * 512 + r.val + t - 3 < 16384 := by omega
    rw [dif_neg h, dif_pos h2, dif_neg h3, dif_pos h4, Layout.block_apply]
    refine congrArg X ?_
    funext a
    match a with
    | ⟨0, _⟩ => exact Fin.ext rfl
    | ⟨1, _⟩ =>
      exact Fin.ext (by
        show c.val * 512 + r.val + t - 3 = c.val * 512 + (r.val + t - 3)
        omega)
    | ⟨2, _⟩ => exact Fin.ext rfl

/-- Block c of the reference's result is the per-device formula of block c of the sequence, the taps,
    and the three rows before the block. -/
theorem block_eq (c : Fin 32) (X : (⟨3, ![4, 16384, 256]⟩ : Shape).Idx → EReal)
    (K : (⟨2, ![4, 256]⟩ : Shape).Idx → EReal) :
    Layout.block ⟨3, ![4, 512, 256]⟩ ⟨3, ![4, 16384, 256]⟩ 1 32 c (refVal X K)
      = Cert.KernelIdeal.Spec.devFormula (Layout.block ⟨3, ![4, 512, 256]⟩ ⟨3, ![4, 16384, 256]⟩ 1 32 c X) K
          (Cert.KernelIdeal.Spec.haloOf (F := Ideal)
            (fun d => Layout.block ⟨3, ![4, 512, 256]⟩ ⟨3, ![4, 16384, 256]⟩ 1 32 d X) c) := by
  funext i
  obtain ⟨b, r, ch, rfl⟩ : ∃ (b : Fin 4) (r : Fin 512) (ch : Fin 256), i = ix3 b r ch :=
    ⟨i 0, i 1, i 2, eq_ix3 i⟩
  rw [Layout.block_apply, blk_idx, refVal_apply]
  unfold Cert.KernelIdeal.Spec.devFormula gsum
  show Cert.KernelIdeal.Spec.silu
      (gpad X b (c.val * 512 + r.val + 0) ch * K (ix2 (0 : Fin 4) ch)
        + gpad X b (c.val * 512 + r.val + 1) ch * K (ix2 (1 : Fin 4) ch)
        + gpad X b (c.val * 512 + r.val + 2) ch * K (ix2 (2 : Fin 4) ch)
        + gpad X b (c.val * 512 + r.val + 3) ch * K (ix2 (3 : Fin 4) ch)) = _
  rw [pad_eq _ X c b r ch 0 (by omega), pad_eq _ X c b r ch 1 (by omega), pad_eq _ X c b r ch 2 (by omega),
    pad_eq _ X c b r ch 3 (by omega)]

/-- info: 'Cert.ReferenceIdeal.RefSide.block_eq' depends on axioms: [propext, Classical.choice, Quot.sound] -/
#guard_msgs in #print axioms block_eq
/-- info: 'Cert.ReferenceIdeal.RefSide.run' depends on axioms: [propext, Classical.choice, Quot.sound] -/
#guard_msgs in #print axioms run

end Cert.ReferenceIdeal.RefSide

end
-- ==== Proof.Assemble.lean ====
/-
  The two programs compute one array: given the kernel's run with each device's result at the per-device
  function of what the device reads, and that function spelt out on the extended reals, every device's result
  is its block of the reference's result.
-/
import proofs.«900794_g7700000000000795_dist_gconv1d_seqshard_i_b4_s512_c256_v7x_i32_bf16_1_alg».proof.Defs
import proofs.«900794_g7700000000000795_dist_gconv1d_seqshard_i_b4_s512_c256_v7x_i32_bf16_1_alg».proof.Proof.RefSide
import proofs.«900794_g7700000000000795_dist_gconv1d_seqshard_i_b4_s512_c256_v7x_i32_bf16_1_alg».proof.Proof.Spec
import proofs.«900794_g7700000000000795_dist_gconv1d_seqshard_i_b4_s512_c256_v7x_i32_bf16_1_alg».proof.Proof.Gen.KernelIdeal
import proofs.«900794_g7700000000000795_dist_gconv1d_seqshard_i_b4_s512_c256_v7x_i32_bf16_1_alg».proof.Proof.Gen.Pre_finite_inputs_Kernel

noncomputable section

namespace Cert.Proof.Assemble

open Idealize.ShloMosaic Idealize.SL.Sem

/-- From the kernel's run (each device's result the per-device function of its block, the taps and its halo)
    and the per-device function on the extended reals: both programs run, every device's result is its block
    of the reference's result, and the arguments of both end unchanged. -/
theorem algebraic_of_run
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Spec.outSpec (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Spec.haloOf (F := Ideal) (fun d : Dev Cert.KernelIdeal.nD => m ((d.tc : Thread Cert.KernelIdeal.nD Cert.KernelIdeal.τ).loc Cert.KernelIdeal.main_arg0)) c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (hval : ∀ (xv : Vec Ideal Cert.KernelIdeal.S4x512x256 .f32) (kv : Vec Ideal Cert.KernelIdeal.S4x256 .f32) (hv : Vec Ideal Cert.KernelIdeal.S4x3x256 .f32),
      Cert.KernelIdeal.Spec.outSpec (F := Ideal) xv kv hv = Cert.KernelIdeal.Spec.devFormula xv kv hv) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' _ hagree
  have hblocks : (fun d : Dev Cert.KernelIdeal.nD => m ((d.tc : Thread Cert.KernelIdeal.nD Cert.KernelIdeal.τ).loc Cert.KernelIdeal.main_arg0))
      = fun d => Layout.block ⟨3, ![4, 512, 256]⟩ ⟨3, ![4, 16384, 256]⟩ 1 32 d (m' (((0 : Dev Cert.ReferenceIdeal.nD).tc : Thread Cert.ReferenceIdeal.nD Cert.ReferenceIdeal.τ).loc Cert.ReferenceIdeal.main_arg0)) :=
    funext fun d => (hagree d).1
  refine ⟨Cert.ReferenceIdeal.RefSide.refVal (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono (fun r h c => ⟨?_, (h c).2.1, (h c).2.2⟩) (hrun m g),
    Cert.ReferenceIdeal.RefSide.run m' g'⟩
  rw [(h c).1, hblocks, (hagree c).1, (hagree c).2, hval]
  exact (Cert.ReferenceIdeal.RefSide.block_eq c _ _).symm

/-- info: 'Cert.Proof.Assemble.algebraic_of_run' depends on axioms: [propext, Classical.choice, Quot.sound] -/
#guard_msgs in #print axioms algebraic_of_run

end Cert.Proof.Assemble

end
-- ==== Proof.lean ====
/-
  The certificate: a causal four-tap depthwise convolution along the sequence, gated by x / (1 + e^(-x)),
  computed by 32 devices that each hold 512 rows of the sequence and fetch the three rows before their
  block from the device before them, against the same convolution of the whole zero-padded sequence on
  one device.

  Both kernel programs (read at words, and at the extended reals) run to the end from any memory on every
  fair interleaving of the 32 devices, with every device's result block at one function of its block, the
  taps and its halo (the last three rows of the block before, or zeros), and the arguments unchanged: the
  frames are that run with the value dropped. The reference's run gives the whole result as one function
  of the whole arrays. Block c of that function is the per-device function of block c, the taps and rows
  512c - 3 … 512c - 1 of the whole sequence, index by index, on the extended reals: the only law used is
  0 + a = a, for the accumulator the reference starts at zero. The ideal pass rewrote nothing, so the
  preservation conjunct is empty.
-/
import proofs.«900794_g7700000000000795_dist_gconv1d_seqshard_i_b4_s512_c256_v7x_i32_bf16_1_alg».proof.Defs
import proofs.«900794_g7700000000000795_dist_gconv1d_seqshard_i_b4_s512_c256_v7x_i32_bf16_1_alg».proof.Proof.Gen.Kernel
import proofs.«900794_g7700000000000795_dist_gconv1d_seqshard_i_b4_s512_c256_v7x_i32_bf16_1_alg».proof.Proof.Gen.KernelIdeal
import proofs.«900794_g7700000000000795_dist_gconv1d_seqshard_i_b4_s512_c256_v7x_i32_bf16_1_alg».proof.Proof.Gen.ReferenceIdeal
import proofs.«900794_g7700000000000795_dist_gconv1d_seqshard_i_b4_s512_c256_v7x_i32_bf16_1_alg».proof.Proof.Gen.Pre_finite_inputs_Kernel
import proofs.«900794_g7700000000000795_dist_gconv1d_seqshard_i_b4_s512_c256_v7x_i32_bf16_1_alg».proof.Proof.Gen.Pre_finite_inputs_ReferenceIdeal
import proofs.«900794_g7700000000000795_dist_gconv1d_seqshard_i_b4_s512_c256_v7x_i32_bf16_1_alg».proof.Proof.KernelValue
import proofs.«900794_g7700000000000795_dist_gconv1d_seqshard_i_b4_s512_c256_v7x_i32_bf16_1_alg».proof.Proof.Body
import proofs.«900794_g7700000000000795_dist_gconv1d_seqshard_i_b4_s512_c256_v7x_i32_bf16_1_alg».proof.Proof.Launch
import proofs.«900794_g7700000000000795_dist_gconv1d_seqshard_i_b4_s512_c256_v7x_i32_bf16_1_alg».proof.Proof.Bits.KernelValue
import proofs.«900794_g7700000000000795_dist_gconv1d_seqshard_i_b4_s512_c256_v7x_i32_bf16_1_alg».proof.Proof.Bits.Body
import proofs.«900794_g7700000000000795_dist_gconv1d_seqshard_i_b4_s512_c256_v7x_i32_bf16_1_alg».proof.Proof.Bits.Launch
import proofs.«900794_g7700000000000795_dist_gconv1d_seqshard_i_b4_s512_c256_v7x_i32_bf16_1_alg».proof.Proof.RefSide
import proofs.«900794_g7700000000000795_dist_gconv1d_seqshard_i_b4_s512_c256_v7x_i32_bf16_1_alg».proof.Proof.Assemble
import Idealize.ShloMosaic.Adequacy
import Idealize.ShloMosaic.Init

noncomputable section

namespace Cert.Proof

open Idealize.ShloMosaic Idealize.SL.Sem

/-- One device's body meets the launch theorem's obligation, at the extended reals … -/
theorem hbody_ideal (m : (ℓ : Loc Cert.KernelIdeal.nD Cert.KernelIdeal.τ Cert.KernelIdeal.sig) → Buf (Elt Ideal) ℓ) (g : Dev Cert.KernelIdeal.nD → PrngReg) (c : Dev Cert.KernelIdeal.nD) :
    Pipeline.BodyObligationLoose (Cert.KernelIdeal.Proto.dats (F := Ideal) m g 0 c) (Cert.KernelIdeal.defs₀ (F := Ideal)) Cert.KernelIdeal.Proto.𝒱₀ () Set.univ :=
  (Cert.KernelIdeal.Body.body_obligation (F := Ideal) m g (fun f0 xv kv hv => Cert.KernelIdeal.KernelValue.stores_eq f0 xv kv hv) c).loose

/-- … and at words. -/
theorem hbody_bits (m : (ℓ : Loc Cert.Kernel.nD Cert.Kernel.τ Cert.Kernel.sig) → Buf (Elt Bits) ℓ) (g : Dev Cert.Kernel.nD → PrngReg) (c : Dev Cert.Kernel.nD) :
    Pipeline.BodyObligationLoose (Cert.Kernel.Proto.dats (F := Bits) m g 0 c) (Cert.Kernel.defs₀ (F := Bits)) Cert.Kernel.Proto.𝒱₀ () Set.univ :=
  (Cert.Kernel.Body.body_obligation (F := Bits) m g (fun f0 xv kv hv => Cert.Kernel.KernelValue.stores_eq f0 xv kv hv) c).loose

theorem frame_kernel : Cert.frame_Kernel (hKernel := Cert.Kernel.Gen.facts) (hPre_finite_inputs_Kernel := Cert.Pre_finite_inputs_Kernel.Gen.facts) :=
  fun m g _ => (θ_run Cert.Kernel.defs _ _).mono (fun _ h c => (h c).2) (Cert.Kernel.Launch.run (F := Bits) m g (hbody_bits m g))

theorem frame_kernelIdeal : Cert.frame_KernelIdeal (hKernelIdeal := Cert.KernelIdeal.Gen.facts) (hPre_finite_inputs_Kernel := Cert.Pre_finite_inputs_Kernel.Gen.facts) :=
  fun m g _ => (θ_run Cert.KernelIdeal.defs _ _).mono (fun _ h c => (h c).2) (Cert.KernelIdeal.Launch.run (F := Ideal) m g (hbody_ideal m g))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.ReferenceIdeal.RefSide.frame, trivial,
  Cert.Proof.Assemble.algebraic_of_run (fun m g => Cert.KernelIdeal.Launch.run (F := Ideal) m g (hbody_ideal m g)) Cert.KernelIdeal.KernelValue.outSpec_ideal⟩

end Cert.Proof

end
